-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x512 : Shape := ⟨3, ![1024, 64, 512]⟩
abbrev S16x512x512 : Shape := ⟨3, ![16, 512, 512]⟩
abbrev S512 : Shape := ⟨1, ![512]⟩
abbrev S_ : Shape := ⟨0, ![]⟩

class Facts : Prop where
  bcast_S_S1024x64x512 : S_.BroadcastsInDim S1024x64x512 (![] : Fin 0 → Fin S1024x64x512.rank)
  reducesTo_S1024x64x512_S_d0_1_2 : S1024x64x512.ReducesTo [0, 1, 2] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x64x512 .f32) (main_arg1 : FVec F S16x512x512 .f32) (main_arg2 : FVec F S512 .f32) : IVec S_ 1 :=
  let main_v0 : FVec F S1024x64x512 .f32 := Host.absf main_arg0
  let main_cst : FVec F S_ .f32 := constant S_ .f32 0x7F800000#32
  let main_v1 : FVec F S1024x64x512 .f32 := broadcastInDim S1024x64x512 ![] bcast_S_S1024x64x512 main_cst
  let main_v2 : IVec S1024x64x512 1 := cmpf .olt main_v0 main_v1
  let main_c : IVec S_ 1 := constantI S_ 1 1#1
  let main_v3 : IVec S_ 1 := (fun x v => Host.reduce IntOp.andi x v reducesTo_S1024x64x512_S_d0_1_2 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x64x512 : Shape := ⟨3, ![1024, 64, 512]⟩
abbrev S16x512x512 : Shape := ⟨3, ![16, 512, 512]⟩
abbrev S512 : Shape := ⟨1, ![512]⟩
abbrev S1024 : Shape := ⟨1, ![1024]⟩
abbrev S64x64x512 : Shape := ⟨3, ![64, 64, 512]⟩
abbrev S1x64x512 : Shape := ⟨3, ![1, 64, 512]⟩
abbrev S1 : Shape := ⟨1, ![1]⟩
abbrev S64x512 : Shape := ⟨2, ![64, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 4
  | .vmem => 6
  | .smem => 1
  | _ => 0

abbrev bufTy : (tb : Table) → Fin (tcTables nBuf tb) → BufTy
  | .hbm, ⟨0, _⟩ => ⟨S1024x64x512, .f32⟩
  | .hbm, ⟨1, _⟩ => ⟨S16x512x512, .f32⟩
  | .hbm, ⟨2, _⟩ => ⟨S512, .f32⟩
  | .hbm, ⟨3, _⟩ => ⟨S64x64x512, .f32⟩
  | .local _ .vmem, ⟨0, _⟩ => ⟨S1x64x512, .f32⟩
  | .local _ .vmem, ⟨1, _⟩ => ⟨S1x64x512, .f32⟩
  | .local _ .vmem, ⟨2, _⟩ => ⟨S16x512x512, .f32⟩
  | .local _ .vmem, ⟨3, _⟩ => ⟨S512, .f32⟩
  | .local _ .vmem, ⟨4, _⟩ => ⟨S1x64x512, .f32⟩
  | .local _ .vmem, ⟨5, _⟩ => ⟨S1x64x512, .f32⟩
  | .local _ .smem, ⟨0, _⟩ => ⟨S1024, .i32⟩
  | _, _ => ⟨S1024x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 16], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v2 : Index := Scalar.indexCast v1
  ![v2.toNat]
def k0_off2 (i : grid0.Coords) : Fin 3 → Nat :=
  let arg1 : BitVec 32 := BitVec.ofNat 32 (i 1).val
  let v6 : Index := Scalar.indexCast arg1
  let c0_3 : Index := 0#32
  let c0_4 : Index := 0#32
  ![v6.toNat, 0, 0]
def cc0_transform_0 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let v2 : Index := Scalar.indexCast v1
  let v3 : BitVec 32 := pf.at 0 (Rect.unit (s := S1024) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  numel1_S1 : S1.numel = 1
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  bitsLt_bf16_f32 : FTy.bits .bf16 < FTy.bits .f32
  h_S1x512x512 : 0 < S1x512x512.numel
  shapeCasts_S1x512x512_S512x512 : S1x512x512.ShapeCasts S512x512
  inb_S512_S512_0 : ∀ a, (![0] : Fin 1 → Nat) a + S512.size a ≤ S512.size a
  h_S512 : 0 < S512.numel
  shapeCasts_S512_S1x512 : S512.ShapeCasts S1x512
  shapeCasts_S1x512_S1x512 : S1x512.ShapeCasts S1x512
  broadcasts_S1x512_S64x512 : S1x512.Broadcasts S64x512
  dot_S64x512_S512x512_S64x512_1_0_0_1_n_n_wf : DotDims.WF S64x512 S512x512 S64x512 [1] [0] [0] [1] [] []
  hrank0 : 0 < grid0.rank
  k0_off1_inb : ∀ i : grid0.Coords, ∀ a, (k0_off1 i) a + S1.size a ≤ S1024.size a
  k0_off2_inb : ∀ i : grid0.Coords, ∀ a, (k0_off2 i) a + S1x512x512.size a ≤ S16x512x512.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512x512.size a ≤ S16x512x512.size a
  hwx0_1 : ∀ i : grid0.Coords, EltTy.bits .f32 = 32 ∨ (Rect.block (s := S16x512x512) S16x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S64x64x512.size a
  hwx0_3 : ∀ i : grid0.Coords, EltTy.bits .f32 = 32 ∨ (Rect.block (s := S64x64x512) S1x64x512.size (cc0_transform_3 i) (hinb0_3 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev spec0_0 : Pipeline.WinSpec sig grid0.rank :=
  Pipeline.WinSpec.ofSpec (Memref.whole main_arg0) S1x64x512.size reads0_0 false false 2 stage0_0 sem0_0 nbuf0_0 hstage0_0

abbrev spec0_1 : Pipeline.WinSpec sig grid0.rank :=
  Pipeline.WinSpec.ofSpec (Memref.whole main_arg1) S16x512x512.size reads0_1 false true 1 stage0_1 sem0_1 nbuf0_1 hstage0_1

abbrev spec0_2 : Pipeline.WinSpec sig grid0.rank :=
  Pipeline.WinSpec.ofSpec (Memref.whole main_arg2) S512.size reads0_2 false true 1 stage0_2 sem0_2 nbuf0_2 hstage0_2

abbrev spec0_3 : Pipeline.WinSpec sig grid0.rank :=
  Pipeline.WinSpec.ofSpec (Memref.whole main_v0) S1x64x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x64x512.size a ≤ S1024x64x512.size a), EltTy.bits .f32 = 32 ∨ (Rect.block (s := S1024x64x512) S1x64x512.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S1024x64x512 : Shape := ⟨3, ![1024, 64, 512]⟩
abbrev S16x512x512 : Shape := ⟨3, ![16, 512, 512]⟩
abbrev S512 : Shape := ⟨1, ![512]⟩
abbrev S1024 : Shape := ⟨1, ![1024]⟩
abbrev S_ : Shape := ⟨0, ![]⟩
abbrev S1024x1 : Shape := ⟨2, ![1024, 1]⟩
abbrev S1024x512x512 : Shape := ⟨3, ![1024, 512, 512]⟩
abbrev S64x64x512 : Shape := ⟨3, ![64, 64, 512]⟩
abbrev S1x1x512 : Shape := ⟨3, ![1, 1, 512]⟩

abbrev nBuf : Space → Nat
  | .hbm => 28
  | .vmem => 0
  | .smem => 0
  | _ => 0

abbrev bufTy : (tb : Table) → Fin (tcTables nBuf tb) → BufTy
  | .hbm, ⟨0, _⟩ => ⟨S1024x64x512, .f32⟩
  | .hbm, ⟨1, _⟩ => ⟨S16x512x512, .f32⟩
  | .hbm, ⟨2, _⟩ => ⟨S512, .f32⟩
  | .hbm, ⟨3, _⟩ => ⟨S1024, .i32⟩
  | .hbm, ⟨4, _⟩ => ⟨S1024, .i1⟩
  | .hbm, ⟨5, _⟩ => ⟨S1024, .i32⟩
  | .hbm, ⟨6, _⟩ => ⟨S1024, .i1⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x64x512, .f32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x512x512, .f32⟩
  | .hbm, ⟨20, _⟩ => ⟨S1024x64x512, .f32⟩
  | .hbm, ⟨21, _⟩ => ⟨S_, .f32⟩
  | .hbm, ⟨22, _⟩ => ⟨S64x64x512, .f32⟩
  | .hbm, ⟨23, _⟩ => ⟨S1024x1, .i32⟩
  | .hbm, ⟨24, _⟩ => ⟨S64x64x512, .f32⟩
  | .hbm, ⟨25, _⟩ => ⟨S1x1x512, .f32⟩
  | .hbm, ⟨26, _⟩ => ⟨S64x64x512, .f32⟩
  | .hbm, ⟨27, _⟩ => ⟨S64x64x512, .f32⟩
  | _, _ => ⟨S1024x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S64x64x512 : S_.BroadcastsInDim S64x64x512 (![] : Fin 0 → Fin S64x64x512.rank)
  bcast_S512_S1x1x512_2 : S512.BroadcastsInDim S1x1x512 (![2] : Fin 1 → Fin S1x1x512.rank)
  bcast_S1x1x512_S64x64x512_0_1_2 : S1x1x512.BroadcastsInDim S64x64x512 (![0, 1, 2] : Fin 3 → Fin S64x64x512.rank)
  gather_S1024x64x512_S1024x1_S1024x64x512_12_0_n_n_0_1_164512_wf : GatherDims.WF S1024x64x512 S1024x1 S1024x64x512 [1, 2] [0] [] [0] [] 1 ![1, 64, 512]
  gather_S16x512x512_S1024x1_S1024x512x512_12_0_n_n_0_1_1512512_wf : GatherDims.WF S16x512x512 S1024x1 S1024x512x512 [1, 2] [0] [] [0] [] 1 ![1, 512, 512]
  dot_S1024x64x512_S1024x512x512_S1024x64x512_2_1_1_2_0_0_wf : DotDims.WF S1024x64x512 S1024x512x512 S1024x64x512 [2] [1] [1] [2] [0] [0]
  scatter_S64x64x512_S1024x1_S1024x64x512_12_0_0_1_wf : ScatterDims.WF S64x64x512 S1024x1 S1024x64x512 [1, 2] [0] [0] 1

variable [Facts₀]

def gather_S1024x64x512_S1024x1_S1024x64x512_12_0_n_n_0_1_164512 : GatherDims S1024x64x512 S1024x1 S1024x64x512 where
  offsetDims := [1, 2]
  collapsedSliceDims := [0]
  operandBatchingDims := []
  startIndicesBatchingDims := []
  startIndexMap := [0]
  indexVectorDim := 1
  sliceSizes := ![1, 64, 512]
  wf := gather_S1024x64x512_S1024x1_S1024x64x512_12_0_n_n_0_1_164512_wf
def gather_S16x512x512_S1024x1_S1024x512x512_12_0_n_n_0_1_1512512 : GatherDims S16x512x512 S1024x1 S1024x512x512 where
  offsetDims := [1, 2]
  collapsedSliceDims := [0]
  operandBatchingDims := []
  startIndicesBatchingDims := []
  startIndexMap := [0]
  indexVectorDim := 1
  sliceSizes := ![1, 512, 512]
  wf := gather_S16x512x512_S1024x1_S1024x512x512_12_0_n_n_0_1_1512512_wf
def dot_S1024x64x512_S1024x512x512_S1024x64x512_2_1_1_2_0_0 : DotDims S1024x64x512 S1024x512x512 S1024x64x512 where
  lhsContracting := [2]
  rhsContracting := [1]
  lhsNonContracting := [1]
  rhsNonContracting := [2]
  lhsBatch := [0]
  rhsBatch := [0]
  wf := dot_S1024x64x512_S1024x512x512_S1024x64x512_2_1_1_2_0_0_wf
def scatter_S64x64x512_S1024x1_S1024x64x512_12_0_0_1 : ScatterDims S64x64x512 S1024x1 S1024x64x512 where
  updateWindowDims := [1, 2]
  insertedWindowDims := [0]
  scatterDimsToOperandDims := [0]
  indexVectorDim := 1
  wf := scatter_S64x64x512_S1024x1_S1024x64x512_12_0_0_1_wf

class Facts : Prop extends Facts₀ where

variable [Facts]
-- ==== Proof.Spec.lean ====
/-
  The function both programs compute, stated once over the argument arrays and over no program.

  The correlation pairs output row y with sixteen input frames, one per filter tap w: frame (y + 1)(w + 1) - 1.  Listed
  y-major and w-minor the pairs are numbered k = 16 y + w, so pair k has output row k / 16, tap k % 16 and frame
  (k / 16 + 1)(k % 16 + 1) - 1.  Pair k contributes, at batch entry n and output channel o, the contraction over the 512
  input channels of frame's entry with the tap's filter; an output entry is the sum of its row's sixteen contributions plus
  the channel's bias.  The extended reals' addition is commutative and associative, so the order in which the sixteen
  contributions are added does not matter, and no finiteness of the inputs is needed.
-/
import Idealize.ShloMosaic.PureOps.Ideal
import Idealize.ShloMosaic.Lib.ValueIdx

noncomputable section

open scoped BigOperators

namespace Cert.Corr

open Idealize.ShloMosaic Idealize.ShloMosaic.ValueIdx

/-- The input frames [1024, 64, 512], the filter taps [16, 512, 512], the bias [512] and the output [64, 64, 512]. -/
abbrev SX : Shape := ⟨3, ![1024, 64, 512]⟩
abbrev SW : Shape := ⟨3, ![16, 512, 512]⟩
abbrev SB : Shape := ⟨1, ![512]⟩
abbrev SO : Shape := ⟨3, ![64, 64, 512]⟩

/-- The input frame of pair k. (Reduced mod 1024 to be a frame for every natural k; for k < 1024 the reduction does nothing.) -/
def frameOf (k : ℕ) : Fin 1024 := ⟨((k / 16 + 1) * (k % 16 + 1) - 1) % 1024, Nat.mod_lt _ (by norm_num)⟩
/-- The filter tap of pair k. -/
def tapOf (k : ℕ) : Fin 16 := ⟨k % 16, Nat.mod_lt _ (by norm_num)⟩

/-- For k < 1024 the frame needs no reduction: (k / 16 + 1)(k % 16 + 1) ≤ 64 · 16. -/
theorem frameOf_val {k : ℕ} (hk : k < 1024) : (frameOf k).val = (k / 16 + 1) * (k % 16 + 1) - 1 := by
  have h1 : k / 16 + 1 ≤ 64 := by omega
  have h2 : k % 16 + 1 ≤ 16 := by omega
  have h3 : (k / 16 + 1) * (k % 16 + 1) ≤ 64 * 16 := Nat.mul_le_mul h1 h2
  have h4 : 0 < (k / 16 + 1) * (k % 16 + 1) := Nat.mul_pos (by omega) (by omega)
  show ((k / 16 + 1) * (k % 16 + 1) - 1) % 1024 = _
  exact Nat.mod_eq_of_lt (by omega)

/-- Pair k's contribution at batch entry n and output channel o: the frame's 512 channels against the tap's filter. -/
def term (x : SX.Idx → EReal) (wt : SW.Idx → EReal) (k : ℕ) (n : Fin 64) (o : Fin 512) : EReal :=
  ∑ c : Fin 512, x (ix3 (frameOf k) n c) * wt (ix3 (tapOf k) c o)

/-- The first j contributions of output row y. -/
def rowSum (x : SX.Idx → EReal) (wt : SW.Idx → EReal) (y j : ℕ) (n : Fin 64) (o : Fin 512) : EReal :=
  ∑ w ∈ Finset.range j, term x wt (16 * y + w) n o

theorem rowSum_zero (x : SX.Idx → EReal) (wt : SW.Idx → EReal) (y : ℕ) (n : Fin 64) (o : Fin 512) :
    rowSum x wt y 0 n o = 0 := Finset.sum_range_zero _

theorem rowSum_succ (x : SX.Idx → EReal) (wt : SW.Idx → EReal) (y j : ℕ) (n : Fin 64) (o : Fin 512) :
    rowSum x wt y (j + 1) n o = rowSum x wt y j n o + term x wt (16 * y + j) n o := Finset.sum_range_succ _ _

/-- THE RESULT: each output entry is its row's sixteen contributions plus its channel's bias. -/
def G (x : SX.Idx → EReal) (wt : SW.Idx → EReal) (b : SB.Idx → EReal) : SO.Idx → EReal :=
  fun i => rowSum x wt (i 0).val 16 (i 1) (i 2) + b (ix1 (i 2))

end Cert.Corr

end
-- ==== Proof.KernelTable.lean ====
/-
  The table of input frames that the pipeline prefetches, for the program in namespace Cert.Kernel.

  The program's first operation writes a constant: 1024 words, word k = 16 y + w being the frame (y + 1)(w + 1) - 1 that
  output row y reads at filter tap w.  Window 0's index map reads word 16 y + w at grid point (y, w) and uses it as the
  block index on axis 0 of the [1024, 64, 512] input, blocks [1, 64, 512].  Three facts are proved here:
  the table the region finds is that constant, whatever the launch memory holds; word k of the constant is pair k's
  frame; and, since every frame is below 1024, every block the table names lies inside the input array.
-/
import proofs.«109876_j73821897884183_1_alg».proof.Proof.Gen.Kernel.Frame.Runs
import proofs.«109876_j73821897884183_1_alg».proof.Proof.Spec

set_option maxRecDepth 16384

noncomputable section

namespace Cert.Kernel.CorrTable

open Cert.Kernel Cert.Kernel.Gen
open Idealize.ShloMosaic Idealize.ShloMosaic.TcCoe Idealize.SL.Sem

variable {F : FTy → Type} [FloatOps F] (m : (ℓ : Loc nD τ sig) → Buf (Elt F) ℓ)

/-! ## The table is the program's constant -/

/-- The table the region reads is the program's literal, whatever the launch memory: the one operation before the
    region writes the table's buffer, and writes the literal there. -/
theorem tbl_eq : tbl m 0 = fun i => lit0 (S1024.rowMajor i) := by
  unfold tbl
  show V m 0 main_c = _
  dsimp only [V, hostOps0]
  open StableHlo in after_results
  rfl

/-- Pointwise: the word at multi-index i is the literal's word at i's row-major position. -/
theorem tbl_apply (i : S1024.Idx) : tbl m 0 i = lit0 (S1024.rowMajor i) := congrFun (tbl_eq m) i

/-! ## The literal's words -/

/-- Word k of the literal, as a number: (k / 16 + 1)(k % 16 + 1) - 1, checked at each of the 1024 positions. -/
theorem lit0_closed : ∀ k : Fin 1024, (lit0 k).toNat = ((k.val / 16 + 1) * (k.val % 16 + 1) - 1) := by
  decide +kernel

/-- Word k of the literal is pair k's frame. -/
theorem lit0_val (k : Fin 1024) : (lit0 k).toNat = (Cert.Corr.frameOf k.val).val := by
  rw [Cert.Corr.frameOf_val k.isLt]; exact lit0_closed k

/-- A rank-1 index's row-major position is its coordinate. -/
theorem rowMajor_ix1 (k : Fin 1024) : S1024.rowMajor (ValueIdx.ix1 k) = k := Fin.ext (Shape.rowMajor_val_one _)

/-- The table's word at position k is pair k's frame. -/
theorem tbl_word (k : Fin 1024) : (tbl m 0 (ValueIdx.ix1 k)).toNat = (Cert.Corr.frameOf k.val).val := by
  rw [tbl_apply, rowMajor_ix1]; exact lit0_val k

/-! ## Window 0's index map, at any contents of the table -/

/-- The position the index map reads at grid point (y, w): 16 y + w, below 64 · 16. -/
def widx (i : grid0.Coords) : Fin 1024 :=
  ⟨16 * (i 0).val + (i 1).val, by
    have h0 : (i 0).val < 64 := (i 0).isLt
    have h1 : (i 1).val < 16 := (i 1).isLt
    omega⟩

/-- The one multi-index of the unit rectangle at offset 16 y + w of the table is position 16 y + w. -/
theorem unit_idx (i : grid0.Coords) (h1 : 0 < S1.numel) :
    (Rect.unit (s := S1024) (k0_off1 i) S1.size (k0_off1_inb i)).emb (Shape.Idx.first h1) = ValueIdx.ix1 (widx i) := by
  funext a
  apply Fin.ext
  match a with
  | ⟨0, _⟩ =>
    show k0_off1 i 0 + 1 * (Shape.Idx.first h1 (0 : Fin 1)).val = 16 * (i 0).val + (i 1).val
    have hz : (Shape.Idx.first h1 (0 : Fin 1)).val = 0 := by
      have := (Shape.Idx.first h1 (0 : Fin 1)).isLt
      have e : S1.size (0 : Fin 1) = 1 := by decide
      omega
    rw [hz, k0_off1_eq]; show 16 * (i 0).val + (i 1).val + 1 * 0 = _; omega

/-- At ANY contents pf of the table, window 0's block index at grid point (y, w) is (pf's word at 16 y + w, 0, 0). -/
theorem transform0_eq (pf : pre0.Contents (Elt F)) (i : grid0.Coords) :
    cc0_transform_0 k0_off1_inb numel1_S1 pf i = ![(pf 0 (ValueIdx.ix1 (widx i)) : BitVec 32).toNat, 0, 0] := by
  have e : cc0_transform_0 k0_off1_inb numel1_S1 pf i
      = ![(pf 0 ((Rect.unit (s := S1024) (k0_off1 i) S1.size (k0_off1_inb i)).emb (Shape.Idx.first (numel1_S1.symm ▸ Nat.one_pos))) : BitVec 32).toNat, 0, 0] := rfl
  rw [e, unit_idx]

/-- At the program's table it is (frame of pair 16 y + w, 0, 0). -/
theorem transform0_tbl (i : grid0.Coords) :
    cc0_transform_0 k0_off1_inb numel1_S1 (tbl m) i = ![(Cert.Corr.frameOf (widx i).val).val, 0, 0] := by
  rw [transform0_eq, tbl_word]

/-! ## The side condition -/

/-- Every table-indexed block lies inside the input array: on axis 0 the block index is a frame, below 1024, and the
    block is one frame deep; on axes 1 and 2 the block index is 0 and the block is the whole axis. -/
theorem ok : Ok m := by
  intro i
  obtain ⟨n, hn, e⟩ : ∃ n : Nat, n < 1024 ∧ cc0_transform_0 k0_off1_inb numel1_S1 (tbl m) i = ![n, 0, 0] :=
    ⟨_, Fin.isLt _, transform0_tbl m i⟩
  refine ⟨fun a => ?_, Or.inl rfl⟩
  rw [e]
  fin_cases a <;> simp [S1x64x512, S1024x64x512] <;> omega

/-! ## Window 0's block index at a grid point -/

/-- At each of the 1024 grid points, 16 y + w is the point's number. -/
theorem widx_coords : ∀ t : Fin grid0.N, 16 * (grid0.coords t 0).val + (grid0.coords t 1).val = t.val := by
  decide +kernel

/-- Window 0's block index at point t, at any admissible contents a of the table: the index map at t's coordinates. -/
theorem index0_of (a : (pcfg0 (F := F)).Adm) (t : Fin (cfg0 a).N) :
    ((cfg0 a).win 0).index t = cc0_transform_0 k0_off1_inb numel1_S1 a.1 (grid0.coords t) := rfl

/-- At the program's table, window 0's block at point t is frame (frame of pair t), whole on the other two axes. -/
theorem index0 (hO : Ok m) (t : Fin (cfgM m hO).N) :
    ((cfgM m hO).win 0).index t = ![(Cert.Corr.frameOf t.val).val, 0, 0] := by
  have e : ((cfgM m hO).win 0).index t = cc0_transform_0 k0_off1_inb numel1_S1 (tbl m) (grid0.coords t) :=
    index0_of (adm m hO) t
  have hw : (widx (grid0.coords t)).val = t.val := widx_coords t
  rw [e, transform0_tbl, hw]

end Cert.Kernel.CorrTable

end
-- ==== Proof.KernelIdealTable.lean ====
/-
  The table of input frames that the pipeline prefetches, for the program in namespace Cert.KernelIdeal.

  The program's first operation writes a constant: 1024 words, word k = 16 y + w being the frame (y + 1)(w + 1) - 1 that
  output row y reads at filter tap w.  Window 0's index map reads word 16 y + w at grid point (y, w) and uses it as the
  block index on axis 0 of the [1024, 64, 512] input, blocks [1, 64, 512].  Three facts are proved here:
  the table the region finds is that constant, whatever the launch memory holds; word k of the constant is pair k's
  frame; and, since every frame is below 1024, every block the table names lies inside the input array.
-/
import proofs.«109876_j73821897884183_1_alg».proof.Proof.Gen.KernelIdeal.Frame.Runs
import proofs.«109876_j73821897884183_1_alg».proof.Proof.Spec

set_option maxRecDepth 16384

noncomputable section

namespace Cert.KernelIdeal.CorrTable

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-! ## The table is the program's constant -/

/-- The table the region reads is the program's literal, whatever the launch memory: the one operation before the
    region writes the table's buffer, and writes the literal there. -/
theorem tbl_eq : tbl m 0 = fun i => lit0 (S1024.rowMajor i) := by
  unfold tbl
  show V m 0 main_c = _
  dsimp only [V, hostOps0]
  open StableHlo in after_results
  rfl

/-- Pointwise: the word at multi-index i is the literal's word at i's row-major position. -/
theorem tbl_apply (i : S1024.Idx) : tbl m 0 i = lit0 (S1024.rowMajor i) := congrFun (tbl_eq m) i

/-! ## The literal's words -/

/-- Word k of the literal, as a number: (k / 16 + 1)(k % 16 + 1) - 1, checked at each of the 1024 positions. -/
theorem lit0_closed : ∀ k : Fin 1024, (lit0 k).toNat = ((k.val / 16 + 1) * (k.val % 16 + 1) - 1) := by
  decide +kernel

/-- Word k of the literal is pair k's frame. -/
theorem lit0_val (k : Fin 1024) : (lit0 k).toNat = (Cert.Corr.frameOf k.val).val := by
  rw [Cert.Corr.frameOf_val k.isLt]; exact lit0_closed k

/-- A rank-1 index's row-major position is its coordinate. -/
theorem rowMajor_ix1 (k : Fin 1024) : S1024.rowMajor (ValueIdx.ix1 k) = k := Fin.ext (Shape.rowMajor_val_one _)

/-- The table's word at position k is pair k's frame. -/
theorem tbl_word (k : Fin 1024) : (tbl m 0 (ValueIdx.ix1 k)).toNat = (Cert.Corr.frameOf k.val).val := by
  rw [tbl_apply, rowMajor_ix1]; exact lit0_val k

/-! ## Window 0's index map, at any contents of the table -/

/-- The position the index map reads at grid point (y, w): 16 y + w, below 64 · 16. -/
def widx (i : grid0.Coords) : Fin 1024 :=
  ⟨16 * (i 0).val + (i 1).val, by
    have h0 : (i 0).val < 64 := (i 0).isLt
    have h1 : (i 1).val < 16 := (i 1).isLt
    omega⟩

/-- The one multi-index of the unit rectangle at offset 16 y + w of the table is position 16 y + w. -/
theorem unit_idx (i : grid0.Coords) (h1 : 0 < S1.numel) :
    (Rect.unit (s := S1024) (k0_off1 i) S1.size (k0_off1_inb i)).emb (Shape.Idx.first h1) = ValueIdx.ix1 (widx i) := by
  funext a
  apply Fin.ext
  match a with
  | ⟨0, _⟩ =>
    show k0_off1 i 0 + 1 * (Shape.Idx.first h1 (0 : Fin 1)).val = 16 * (i 0).val + (i 1).val
    have hz : (Shape.Idx.first h1 (0 : Fin 1)).val = 0 := by
      have := (Shape.Idx.first h1 (0 : Fin 1)).isLt
      have e : S1.size (0 : Fin 1) = 1 := by decide
      omega
    rw [hz, k0_off1_eq]; show 16 * (i 0).val + (i 1).val + 1 * 0 = _; omega

/-- At ANY contents pf of the table, window 0's block index at grid point (y, w) is (pf's word at 16 y + w, 0, 0). -/
theorem transform0_eq (pf : pre0.Contents (Elt F)) (i : grid0.Coords) :
    cc0_transform_0 k0_off1_inb numel1_S1 pf i = ![(pf 0 (ValueIdx.ix1 (widx i)) : BitVec 32).toNat, 0, 0] := by
  have e : cc0_transform_0 k0_off1_inb numel1_S1 pf i
      = ![(pf 0 ((Rect.unit (s := S1024) (k0_off1 i) S1.size (k0_off1_inb i)).emb (Shape.Idx.first (numel1_S1.symm ▸ Nat.one_pos))) : BitVec 32).toNat, 0, 0] := rfl
  rw [e, unit_idx]

/-- At the program's table it is (frame of pair 16 y + w, 0, 0). -/
theorem transform0_tbl (i : grid0.Coords) :
    cc0_transform_0 k0_off1_inb numel1_S1 (tbl m) i = ![(Cert.Corr.frameOf (widx i).val).val, 0, 0] := by
  rw [transform0_eq, tbl_word]

/-! ## The side condition -/

/-- Every table-indexed block lies inside the input array: on axis 0 the block index is a frame, below 1024, and the
    block is one frame deep; on axes 1 and 2 the block index is 0 and the block is the whole axis. -/
theorem ok : Ok m := by
  intro i
  obtain ⟨n, hn, e⟩ : ∃ n : Nat, n < 1024 ∧ cc0_transform_0 k0_off1_inb numel1_S1 (tbl m) i = ![n, 0, 0] :=
    ⟨_, Fin.isLt _, transform0_tbl m i⟩
  refine ⟨fun a => ?_, Or.inl rfl⟩
  rw [e]
  fin_cases a <;> simp [S1x64x512, S1024x64x512] <;> omega

/-! ## Window 0's block index at a grid point -/

/-- At each of the 1024 grid points, 16 y + w is the point's number. -/
theorem widx_coords : ∀ t : Fin grid0.N, 16 * (grid0.coords t 0).val + (grid0.coords t 1).val = t.val := by
  decide +kernel

/-- Window 0's block index at point t, at any admissible contents a of the table: the index map at t's coordinates. -/
theorem index0_of (a : (pcfg0 (F := F)).Adm) (t : Fin (cfg0 a).N) :
    ((cfg0 a).win 0).index t = cc0_transform_0 k0_off1_inb numel1_S1 a.1 (grid0.coords t) := rfl

/-- At the program's table, window 0's block at point t is frame (frame of pair t), whole on the other two axes. -/
theorem index0 (hO : Ok m) (t : Fin (cfgM m hO).N) :
    ((cfgM m hO).win 0).index t = ![(Cert.Corr.frameOf t.val).val, 0, 0] := by
  have e : ((cfgM m hO).win 0).index t = cc0_transform_0 k0_off1_inb numel1_S1 (tbl m) (grid0.coords t) :=
    index0_of (adm m hO) t
  have hw : (widx (grid0.coords t)).val = t.val := widx_coords t
  rw [e, transform0_tbl, hw]

end Cert.KernelIdeal.CorrTable

end
-- ==== Proof.KPayload.lean ====
import proofs.«109876_j73821897884183_1_alg».proof.Proof.Gen.KernelIdeal.Frame
import proofs.«109876_j73821897884183_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

/-! ## The body's three stored values, read at an entry, over the extended reals

  The body stores a zero block at a row's first tap; at every tap the block it finds plus the product of the frame's
  [64, 512] entries with the tap's [512, 512] filter (the change of float format before the product is the identity on
  extended reals, and the product into a zero accumulator is the plain sum over the 512 input channels); and at a row's
  last tap the block it finds plus the bias, one value per output channel. -/

namespace Cert.KernelIdeal.CorrValue

open Cert.KernelIdeal Cert.KernelIdeal.Gen Idealize.ShloMosaic.ValueIdx

/-- The left factor's row is the output's row, -/
theorem lhs_row (i : S64x512.Idx) (q : dot_S64x512_S512x512_S64x512_1_0_0_1_n_n.contr.Idx) :
    (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide),
    dif_pos (show (0 : Fin S64x512.rank) ∈ dot_S64x512_S512x512_S64x512_1_0_0_1_n_n.lhsNonContracting by decide)]
  rfl
/-- its column the contracted channel; -/
theorem lhs_col (i : S64x512.Idx) (q : dot_S64x512_S512x512_S64x512_1_0_0_1_n_n.contr.Idx) :
    (dot_S64x512_S512x512_S64x512_1_0_0_1_n_n.lhsIdx i q 1).val = (q ⟨0, by decide⟩).val :=
  dot_S64x512_S512x512_S64x512_1_0_0_1_n_n.lhsIdx_val_of_single rfl i q
/-- the right factor's row is the contracted channel, -/
theorem rhs_row (i : S64x512.Idx) (q : dot_S64x512_S512x512_S64x512_1_0_0_1_n_n.contr.Idx) :
    (dot_S64x512_S512x512_S64x512_1_0_0_1_n_n.rhsIdx i q 0).val = (q ⟨0, by decide⟩).val :=
  dot_S64x512_S512x512_S64x512_1_0_0_1_n_n.rhsIdx_val_of_single rfl i q
/-- its column the output's column. -/
theorem rhs_col (i : S64x512.Idx) (q : dot_S64x512_S512x512_S64x512_1_0_0_1_n_n.contr.Idx) :
    (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide),
    dif_pos (show (1 : Fin S512x512.rank) ∈ dot_S64x512_S512x512_S64x512_1_0_0_1_n_n.rhsNonContracting by decide)]
  rfl

/-- The product of a [64, 512] block with a [512, 512] filter into the zero accumulator, at (n, o): the sum over the 512
    input channels. -/
theorem matmul_entry (l : FVec Ideal S64x512 .bf16) (r : FVec Ideal S512x512 .bf16) (n : Fin 64) (o : Fin 512) :
    matmul dot_S64x512_S512x512_S64x512_1_0_0_1_n_n none l r (constant S64x512 .f32 0x00000000#32) (ix2 n o)
      = ∑ c : Fin 512, l (ix2 n c) * r (ix2 c o) := by
  simp only [matmul]
  rw [Ideal.matmul_constant_zero_apply, ← Equiv.sum_comp (contrEquiv1 dot_S64x512_S512x512_S64x512_1_0_0_1_n_n 512 rfl rfl).symm]
  refine Finset.sum_congr rfl fun c _ => ?_
  have hk := contrEquiv1_symm_val dot_S64x512_S512x512_S64x512_1_0_0_1_n_n 512 rfl rfl c
  have el : dot_S64x512_S512x512_S64x512_1_0_0_1_n_n.lhsIdx (ix2 n o) ((contrEquiv1 dot_S64x512_S512x512_S64x512_1_0_0_1_n_n 512 rfl rfl).symm c) = ix2 n c :=
    funext fun a => Fin.ext (by
      match a with
      | ⟨0, _⟩ => exact lhs_row _ _
      | ⟨1, _⟩ => exact (lhs_col _ _).trans hk)
  have er : dot_S64x512_S512x512_S64x512_1_0_0_1_n_n.rhsIdx (ix2 n o) ((contrEquiv1 dot_S64x512_S512x512_S64x512_1_0_0_1_n_n 512 rfl rfl).symm c) = ix2 c o :=
    funext fun a => Fin.ext (by
      match a with
      | ⟨0, _⟩ => exact (rhs_row _ _).trans hk
      | ⟨1, _⟩ => exact rhs_col _ _)
  rw [el, er]

/-- The zero block, at any entry. -/
theorem pay1_entry (a : Fin 1) (n : Fin 64) (o : Fin 512) : k0_pay1 (F := Ideal) (ix3 a n o) = 0 := by
  unfold k0_pay1
  refine (shapeCast_ab_1ab_apply _ _ a n o).trans ?_
  exact Ideal.ofBits_zero_f32

/-- The accumulating store, at an entry: what the block held there plus the frame's row against the filter's column. -/
theorem pay2_entry (v3 : Vec Ideal S1x64x512 .f32) (v7 : Vec Ideal S1x512x512 .f32) (v10 : Vec Ideal S1x64x512 .f32)
    (a : Fin 1) (n : Fin 64) (o : Fin 512) :
    k0_pay2 v3 v7 v10 (ix3 a n o)
      = v10 (ix3 (0 : Fin 1) n o) + ∑ c : Fin 512, v3 (ix3 (0 : Fin 1) n c) * v7 (ix3 (0 : Fin 1) c o) := by
  unfold k0_pay2
  refine (shapeCast_ab_1ab_apply _ _ a n o).trans ?_
  refine (addf_apply _ _ _).trans ?_
  refine congrArg₂ (· + ·) (shapeCast_1ab_ab_apply v10 _ n o) ?_
  refine (matmul_entry _ _ n o).trans ?_
  refine Finset.sum_congr rfl fun c _ => ?_
  exact congrArg₂ (· * ·) (shapeCast_1ab_ab_apply v3 _ n c) (shapeCast_1ab_ab_apply v7 _ c o)

/-- The closing store, at an entry: what the block held there plus the channel's bias. -/
theorem pay3_entry (v20 : Vec Ideal S512 .f32) (v21 : Vec Ideal S1x64x512 .f32) (a : Fin 1) (n : Fin 64) (o : Fin 512) :
    k0_pay3 v20 v21 (ix3 a n o) = v21 (ix3 (0 : Fin 1) n o) + v20 (ix1 o) := by
  unfold k0_pay3
  refine (shapeCast_ab_1ab_apply _ _ a n o).trans ?_
  refine (addf_apply _ _ _).trans ?_
  refine congrArg₂ (· + ·) (shapeCast_1ab_ab_apply v21 _ n o) ?_
  refine (broadcastTo_1b_ab_apply _ _ n o).trans ?_
  rw [shapeCast_self]
  exact shapeCast_a_1a_apply v20 _ (0 : Fin 1) o

end Cert.KernelIdeal.CorrValue

end
-- ==== Proof.KPieces.lean ====
import proofs.«109876_j73821897884183_1_alg».proof.Proof.Gen.KernelIdeal.Frame
import proofs.«109876_j73821897884183_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

/-! ## What the body leaves in the output's block, case by case

  A grid point is in one of three cases: a row's first tap (the block is zeroed, read back, and the tap's product added),
  a middle tap (the product is added to the block as found), a row's last tap (the product is added, then the bias).
  In each case the last store covers the whole block, so the block ends at that store's value; a load that follows a
  covering store reads that store's value. -/

namespace Cert.KernelIdeal.CorrValue

open Cert.KernelIdeal Cert.KernelIdeal.Gen

variable {F : FTy → Type} [FloatOps F]

theorem hz3 : (![0, 0, 0] : Fin 3 → Nat) = fun _ => 0 := funext fun a => by fin_cases a <;> rfl
theorem hz1 : (![0] : Fin 1 → Nat) = fun _ => 0 := funext fun a => by fin_cases a; rfl

/-- The tap's filter as the body loads it at grid coordinates `i`: slice `i 1` of the resident filters. -/
abbrev wload (i : grid0.Coords) (x1 : Vec F S16x512x512 .f32) : Vec F S1x512x512 .f32 :=
  View.ld x1 (Rect.unit (s := S16x512x512) (k0_off2 i) S1x512x512.size (k0_off2_inb i))

/-- A middle tap: the block as found, `xo3`, plus the product. -/
theorem out_B (c : Dev nD) (i : grid0.Coords) (arg3 : Memref sig .tc .vmem S1x64x512 .f32) (harg3 : arg3.IsWhole) (arg4 : Memref sig .tc .vmem S16x512x512 .f32) (harg4 : arg4.IsWhole) (arg5 : Memref sig .tc .vmem S512 .f32) (harg5 : arg5.IsWhole) (arg6 : Memref sig .tc .vmem S1x64x512 .f32) (harg6 : arg6.IsWhole) (hc0 : ¬cond0_0 i) (hc1 : ¬cond0_1 i)
    (x0 : Vec F S1x64x512 .f32) (x1 : Vec F S16x512x512 .f32) (x2 : Vec F S512 .f32) (xt0 : TbBuf0 (F := F) c tbM0_0) (xo3 : Vec F S1x64x512 .f32) :
    out0_B_3 c i arg3 harg3 arg4 harg4 arg5 harg5 arg6 harg6 hc0 hc1 x0 x1 x2 xt0 xo3 = k0_pay2 x0 (wload i x1) xo3 := by
  unfold out0_B_3
  rw [View.read_writes_eq_canon _ _ _ (cover0_B_3 c i arg3 harg3 arg4 harg4 arg5 harg5 arg6 harg6 hc0 hc1 x0 x1 x2 xt0 xo3)]
  unfold kernelRun0_B
  dsimp only
  sl_unfold_words
  rw [View.canon_unit_zero hz3]
  simp only [View.readAt_eq_ld, harg3.read_unread, harg4.read_unread, harg6.read_unread, View.ld_unit_zero (S := S1x64x512) hz3]
  rfl

/-- A row's first tap: the zero block is stored and read back, and the product added to it. -/
theorem out_A (c : Dev nD) (i : grid0.Coords) (arg3 : Memref sig .tc .vmem S1x64x512 .f32) (harg3 : arg3.IsWhole) (arg4 : Memref sig .tc .vmem S16x512x512 .f32) (harg4 : arg4.IsWhole) (arg5 : Memref sig .tc .vmem S512 .f32) (harg5 : arg5.IsWhole) (arg6 : Memref sig .tc .vmem S1x64x512 .f32) (harg6 : arg6.IsWhole) (hc0 : cond0_0 i) (hc1 : ¬cond0_1 i)
    (x0 : Vec F S1x64x512 .f32) (x1 : Vec F S16x512x512 .f32) (x2 : Vec F S512 .f32) (xt0 : TbBuf0 (F := F) c tbM0_0) :
    out0_A_3 c i arg3 harg3 arg4 harg4 arg5 harg5 arg6 harg6 hc0 hc1 x0 x1 x2 xt0 = k0_pay2 x0 (wload i x1) k0_pay1 := by
  unfold out0_A_3
  rw [View.read_writes_eq_canon _ _ _ (cover0_A_3 c i arg3 harg3 arg4 harg4 arg5 harg5 arg6 harg6 hc0 hc1 x0 x1 x2 xt0)]
  unfold kernelRun0_A
  dsimp only
  sl_unfold_words
  rw [View.canon_cons_unit_zero (S := S1x64x512) hz3]
  simp only [View.readAt_eq_ld, harg3.read_unread, harg4.read_unread, View.ld_unit_zero (S := S1x64x512) hz3,
    View.readCov_unit_zero (S := S1x64x512) _ hz3]
  rfl

/-- A row's last tap: the product is added to the block as found, and the bias to that. -/
theorem out_C (c : Dev nD) (i : grid0.Coords) (arg3 : Memref sig .tc .vmem S1x64x512 .f32) (harg3 : arg3.IsWhole) (arg4 : Memref sig .tc .vmem S16x512x512 .f32) (harg4 : arg4.IsWhole) (arg5 : Memref sig .tc .vmem S512 .f32) (harg5 : arg5.IsWhole) (arg6 : Memref sig .tc .vmem S1x64x512 .f32) (harg6 : arg6.IsWhole) (hc0 : ¬cond0_0 i) (hc1 : cond0_1 i)
    (x0 : Vec F S1x64x512 .f32) (x1 : Vec F S16x512x512 .f32) (x2 : Vec F S512 .f32) (xt0 : TbBuf0 (F := F) c tbM0_0) (xo3 : Vec F S1x64x512 .f32) :
    out0_C_3 c i arg3 harg3 arg4 harg4 arg5 harg5 arg6 harg6 hc0 hc1 x0 x1 x2 xt0 xo3 = k0_pay3 x2 (k0_pay2 x0 (wload i x1) xo3) := by
  unfold out0_C_3
  rw [View.read_writes_eq_canon _ _ _ (cover0_C_3 c i arg3 harg3 arg4 harg4 arg5 harg5 arg6 harg6 hc0 hc1 x0 x1 x2 xt0 xo3)]
  unfold kernelRun0_C
  dsimp only
  sl_unfold_words
  rw [View.canon_cons_unit_zero (S := S1x64x512) hz3]
  simp only [View.readAt_eq_ld, harg3.read_unread, harg4.read_unread, harg5.read_unread, harg6.read_unread,
    View.ld_unit_zero (S := S1x64x512) hz3, View.ld_unit_zero (S := S512) hz1, View.readCov_unit_zero (S := S1x64x512) _ hz3]
  rfl

end Cert.KernelIdeal.CorrValue

end
-- ==== Proof.KBlocks.lean ====
import proofs.«109876_j73821897884183_1_alg».proof.Proof.KPayload
import proofs.«109876_j73821897884183_1_alg».proof.Proof.KPieces
import proofs.«109876_j73821897884183_1_alg».proof.Proof.KernelIdealTable
import proofs.«109876_j73821897884183_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

/-! ## The blocks the body reads at a grid point, at an entry -/

namespace Cert.KernelIdeal.CorrValue

open Cert.KernelIdeal Cert.KernelIdeal.Gen Idealize.ShloMosaic.ValueIdx Cert.Corr

variable (m : (ℓ : Loc nD τ sig) → Buf (Elt Ideal) ℓ) (ρ : Dev nD → PrngReg)

/-- Grid point t is (t / 16, t % 16): output row and tap. -/
theorem coords_eq : ∀ t : Fin grid0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The filter slice the body loads at point t starts at tap t % 16. -/
theorem off2_eq : ∀ t : Fin grid0.N, k0_off2 (grid0.coords t) = ![t.val % 16, 0, 0] :=
  (by decide +kernel : ∀ t : Fin grid0.N, k0_off2 (grid0.coords t) = ![t.val % 16, 0, 0])

/-- The output block of point t is row t / 16. -/
theorem transform3_eq : ∀ t : Fin grid0.N, cc0_transform_3 (grid0.coords t) = ![t.val / 16, 0, 0] :=
  (by decide +kernel : ∀ t : Fin grid0.N, cc0_transform_3 (grid0.coords t) = ![t.val / 16, 0, 0])

/-- Where an entry of window 0's block at point t sits in the input, at ANY contents of the table: in the frame the
    table's word names, at the same batch entry and channel. -/
theorem emb0 (a : (pcfg0 (F := Ideal)).Adm) (t : Fin (cfg0 a).N) (f : Fin 1024)
    (hidx : ((cfg0 a).win 0).index t = ![f.val, 0, 0]) (u : Fin 1) (n : Fin 64) (ch : Fin 512) :
    (((cfg0 a).win 0).blk t).view.emb (ix3 u n ch) = ix3 f n ch := by
  funext ax; apply Fin.ext
  have hu : u.val = 0 := by omega
  match ax with
  | ⟨0, h⟩ =>
    show ((cfg0 a).win 0).index t ⟨0, h⟩ * 1 + 1 * u.val = f.val
    rw [hidx, hu]; show f.val * 1 + 1 * 0 = f.val; omega
  | ⟨1, h⟩ =>
    show ((cfg0 a).win 0).index t ⟨1, h⟩ * 64 + 1 * n.val = n.val
    rw [hidx]; show 0 * 64 + 1 * n.val = n.val; omega
  | ⟨2, h⟩ =>
    show ((cfg0 a).win 0).index t ⟨2, h⟩ * 512 + 1 * ch.val = ch.val
    rw [hidx]; show 0 * 512 + 1 * ch.val = ch.val; omega

/-- The three input blocks at point t, each at its literal type. -/
abbrev xblk (hO : Ok m) (c : Dev nD) (t : Fin (cfgM m hO).N) : Vec Ideal S1x64x512 .f32 := iblk m hO c 0 t
abbrev wblk (hO : Ok m) (c : Dev nD) (t : Fin (cfgM m hO).N) : Vec Ideal S16x512x512 .f32 := iblk m hO c 1 t
abbrev bblk (hO : Ok m) (c : Dev nD) (t : Fin (cfgM m hO).N) : Vec Ideal S512 .f32 := iblk m hO c 2 t

/-- The frame block at point t is input frame `frameOf t`. -/
theorem blk0_entry (hO : Ok m) (c : Dev nD) (t : Fin (cfgM m hO).N) (u : Fin 1) (n : Fin 64) (ch : Fin 512) :
    xblk m hO c t (ix3 u n ch) = m ((c : Thread nD τ).loc main_arg0) (ix3 (frameOf t.val) n ch) := by
  show V m c main_arg0 ((((cfg0 (adm m hO)).win 0).blk t).view.emb (ix3 u n ch)) = _
  rw [V_main_arg0, emb0 (adm m hO) t (frameOf t.val) (CorrTable.index0 m hO t) u n ch]

/-- Where an entry of a whole-array window's block sits in its array, at any contents of the table: at itself (the
    filters' window and the bias's window each hold the whole array at every point). -/
theorem emb1 (a : (pcfg0 (F := Ideal)).Adm) (t : Fin (cfg0 a).N) (w : Fin 16) (ch : Fin 512) (o : Fin 512) :
    (((cfg0 a).win 1).blk t).view.emb (ix3 w ch o) = ix3 w ch o := by
  funext ax; apply Fin.ext
  match ax with
  | ⟨0, h⟩ => show 0 * 16 + 1 * w.val = w.val; omega
  | ⟨1, h⟩ => show 0 * 512 + 1 * ch.val = ch.val; omega
  | ⟨2, h⟩ => show 0 * 512 + 1 * o.val = o.val; omega

theorem emb2 (a : (pcfg0 (F := Ideal)).Adm) (t : Fin (cfg0 a).N) (o : Fin 512) :
    (((cfg0 a).win 2).blk t).view.emb (ix1 o) = ix1 o := by
  funext ax; apply Fin.ext
  match ax with
  | ⟨0, h⟩ => show 0 * 512 + 1 * o.val = o.val; omega

/-- The filters' block at any point is the filter array. -/
theorem blk1_entry (hO : Ok m) (c : Dev nD) (t : Fin (cfgM m hO).N) (w : Fin 16) (ch : Fin 512) (o : Fin 512) :
    wblk m hO c t (ix3 w ch o) = m ((c : Thread nD τ).loc main_arg1) (ix3 w ch o) := by
  show V m c main_arg1 ((((cfg0 (adm m hO)).win 1).blk t).view.emb (ix3 w ch o)) = _
  rw [V_main_arg1, emb1 (adm m hO) t w ch o]

/-- The bias's block at any point is the bias. -/
theorem blk2_entry (hO : Ok m) (c : Dev nD) (t : Fin (cfgM m hO).N) (o : Fin 512) :
    bblk m hO c t (ix1 o) = m ((c : Thread nD τ).loc main_arg2) (ix1 o) := by
  show V m c main_arg2 ((((cfg0 (adm m hO)).win 2).blk t).view.emb (ix1 o)) = _
  rw [V_main_arg2, emb2 (adm m hO) t o]

/-- The filter slice the body loads at point t is tap `tapOf t` of the filters it holds. -/
theorem wload_entry (t : Fin grid0.N) (x1 : Vec Ideal S16x512x512 .f32) (u : Fin 1) (ch : Fin 512) (o : Fin 512) :
    wload (grid0.coords t) x1 (ix3 u ch o) = x1 (ix3 (tapOf t.val) ch o) := by
  show x1 _ = x1 _
  refine congrArg x1 (funext fun ax => Fin.ext ?_)
  have hu : u.val = 0 := by omega
  have ho := off2_eq t
  match ax with
  | ⟨0, h⟩ => show k0_off2 (grid0.coords t) ⟨0, h⟩ + 1 * u.val = t.val % 16; rw [ho, hu]; show t.val % 16 + 1 * 0 = _; omega
  | ⟨1, h⟩ => show k0_off2 (grid0.coords t) ⟨1, h⟩ + 1 * ch.val = ch.val; rw [ho]; show 0 + 1 * ch.val = _; omega
  | ⟨2, h⟩ => show k0_off2 (grid0.coords t) ⟨2, h⟩ + 1 * o.val = o.val; rw [ho]; show 0 + 1 * o.val = _; omega

/-- The product the body adds at point t is pair t's contribution. -/
theorem prod_entry (hO : Ok m) (c : Dev nD) (t : Fin (cfgM m hO).N) (n : Fin 64) (o : Fin 512) :
    ∑ ch : Fin 512, xblk m hO c t (ix3 (0 : Fin 1) n ch) * wload (grid0.coords t) (wblk m hO c t) (ix3 (0 : Fin 1) ch o)
      = term (m ((c : Thread nD τ).loc main_arg0)) (m ((c : Thread nD τ).loc main_arg1)) t.val n o := by
  unfold term
  refine Finset.sum_congr rfl fun ch _ => ?_
  exact congrArg₂ (· * ·) (blk0_entry m hO c t 0 n ch) ((wload_entry t _ 0 ch o).trans (blk1_entry m hO c t _ ch o))

end Cert.KernelIdeal.CorrValue

end
-- ==== Proof.KAcc.lean ====
import proofs.«109876_j73821897884183_1_alg».proof.Proof.KBlocks
import proofs.«109876_j73821897884183_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.CorrValue

open Cert.KernelIdeal Cert.KernelIdeal.Gen Idealize.ShloMosaic.ValueIdx Cert.Corr

variable (m : (ℓ : Loc nD τ sig) → Buf (Elt Ideal) ℓ) (ρ : Dev nD → PrngReg)

/-! ## What the output's block holds after each grid point -/

/-- The three argument arrays of device c, as functions of their indices. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- At a row's first tap the block ends at that pair's contribution (the zero block plus the product). -/
theorem at_first (hO : Ok m) (c : Dev nD) (t : Fin (cfgM m hO).N) (h0 : t.val % 16 = 0) (h1 : ¬t.val % 16 = 15)
    (u : Fin 1) (n : Fin 64) (o : Fin 512) :
    outsAt0 m hO c t.val t.isLt (ix3 u n o) = term (argX m c) (argW m c) t.val n o := by
  refine (congrFun (outsAt0_A m hO c t h0 h1) (ix3 u n o)).trans ?_
  refine (congrFun (out_A (F := Ideal) c (grid0.coords t) (ms0_0 m hO t) (hs0_0 m hO t) (ms0_1 m hO t) (hs0_1 m hO t)
    (ms0_2 m hO t) (hs0_2 m hO t) (ms0_3 m hO t) (hs0_3 m hO t) ((hcond0_0 t).mpr h0) (fun h => h1 ((hcond0_1 t).mp h))
    (xblk m hO c t) (wblk m hO c t) (bblk m hO c t) (tbl m 0)) (ix3 u n o)).trans ?_
  refine (pay2_entry (xblk m hO c t) (wload (grid0.coords t) (wblk m hO c t)) (k0_pay1 (F := Ideal)) u n o).trans ?_
  rw [pay1_entry, zero_add]
  exact prod_entry m hO c t n o

/-- At a middle tap it ends at what the point before left plus that pair's contribution. -/
theorem at_middle (hO : Ok m) (c : Dev nD) (t : Fin (cfgM m hO).N) (h0 : ¬t.val % 16 = 0) (h1 : ¬t.val % 16 = 15)
    (u : Fin 1) (n : Fin 64) (o : Fin 512) :
    outsAt0 m hO c t.val t.isLt (ix3 u n o)
      = outsAt0 m hO c (t.val - 1) (Nat.lt_of_le_of_lt (Nat.sub_le _ _) t.isLt) (ix3 (0 : Fin 1) n o)
        + term (argX m c) (argW m c) t.val n o := by
  refine (congrFun (outsAt0_B m hO c t h0 h1) (ix3 u n o)).trans ?_
  refine (congrFun (out_B (F := Ideal) c (grid0.coords t) (ms0_0 m hO t) (hs0_0 m hO t) (ms0_1 m hO t) (hs0_1 m hO t)
    (ms0_2 m hO t) (hs0_2 m hO t) (ms0_3 m hO t) (hs0_3 m hO t) (fun h => h0 ((hcond0_0 t).mp h)) (fun h => h1 ((hcond0_1 t).mp h))
    (xblk m hO c t) (wblk m hO c t) (bblk m hO c t) (tbl m 0)
    (outsAt0 m hO c (t.val - 1) (Nat.lt_of_le_of_lt (Nat.sub_le _ _) t.isLt))) (ix3 u n o)).trans ?_
  refine (pay2_entry (xblk m hO c t) (wload (grid0.coords t) (wblk m hO c t))
    (outsAt0 m hO c (t.val - 1) (Nat.lt_of_le_of_lt (Nat.sub_le _ _) t.isLt)) u n o).trans ?_
  exact congrArg (_ + ·) (prod_entry m hO c t n o)

/-- At a row's last tap it ends at the same, plus the channel's bias. -/
theorem at_last (hO : Ok m) (c : Dev nD) (t : Fin (cfgM m hO).N) (h0 : ¬t.val % 16 = 0) (h1 : t.val % 16 = 15)
    (u : Fin 1) (n : Fin 64) (o : Fin 512) :
    outsAt0 m hO c t.val t.isLt (ix3 u n o)
      = outsAt0 m hO c (t.val - 1) (Nat.lt_of_le_of_lt (Nat.sub_le _ _) t.isLt) (ix3 (0 : Fin 1) n o)
        + term (argX m c) (argW m c) t.val n o + argB m c (ix1 o) := by
  refine (congrFun (outsAt0_C m hO c t h0 h1) (ix3 u n o)).trans ?_
  refine (congrFun (out_C (F := Ideal) c (grid0.coords t) (ms0_0 m hO t) (hs0_0 m hO t) (ms0_1 m hO t) (hs0_1 m hO t)
    (ms0_2 m hO t) (hs0_2 m hO t) (ms0_3 m hO t) (hs0_3 m hO t) (fun h => h0 ((hcond0_0 t).mp h)) ((hcond0_1 t).mpr h1)
    (xblk m hO c t) (wblk m hO c t) (bblk m hO c t) (tbl m 0)
    (outsAt0 m hO c (t.val - 1) (Nat.lt_of_le_of_lt (Nat.sub_le _ _) t.isLt))) (ix3 u n o)).trans ?_
  refine (pay3_entry (bblk m hO c t) _ u n o).trans ?_
  refine congrArg₂ (· + ·) ?_ (blk2_entry m hO c t o)
  refine (pay2_entry (xblk m hO c t) (wload (grid0.coords t) (wblk m hO c t))
    (outsAt0 m hO c (t.val - 1) (Nat.lt_of_le_of_lt (Nat.sub_le _ _) t.isLt)) 0 n o).trans ?_
  exact congrArg (_ + ·) (prod_entry m hO c t n o)

/-- THE RUNNING SUM: before a row's last tap, after point k the block holds the row's first k % 16 + 1 contributions —
    by induction on the point, never by listing the grid. -/
theorem acc_eq (hO : Ok m) (c : Dev nD) : ∀ (k : ℕ) (hk : k < (cfgM m hO).N), ¬k % 16 = 15 →
    ∀ (u : Fin 1) (n : Fin 64) (o : Fin 512),
      outsAt0 m hO c k hk (ix3 u n o) = rowSum (argX m c) (argW m c) (k / 16) (k % 16 + 1) n o
  | 0, hk, _, u, n, o => by
    refine (at_first m hO c ⟨0, hk⟩ rfl (by show ¬(0 : ℕ) % 16 = 15; decide) u n o).trans ?_
    show term (argX m c) (argW m c) 0 n o = rowSum (argX m c) (argW m c) 0 (0 + 1) n o
    rw [rowSum_succ, rowSum_zero, zero_add]
  | k + 1, hk, h15, u, n, o => by
    rw [rowSum_succ _ _ ((k + 1) / 16) ((k + 1) % 16), Nat.div_add_mod]
    by_cases h0 : (k + 1) % 16 = 0
    · refine (at_first m hO c ⟨k + 1, hk⟩ h0 h15 u n o).trans ?_
      rw [h0, rowSum_zero, zero_add]
    · refine (at_middle m hO c ⟨k + 1, hk⟩ h0 h15 u n o).trans ?_
      have ih := acc_eq hO c k (Nat.lt_of_succ_lt hk) (by omega) 0 n o
      show outsAt0 m hO c k _ (ix3 (0 : Fin 1) n o) + _ = _
      rw [ih, show k / 16 = (k + 1) / 16 from by omega, show k % 16 + 1 = (k + 1) % 16 from by omega]

/-- After a row's last tap the block holds the row's sixteen contributions plus the bias. -/
theorem row_done (hO : Ok m) (c : Dev nD) (t : Fin (cfgM m hO).N) (h1 : t.val % 16 = 15)
    (u : Fin 1) (n : Fin 64) (o : Fin 512) :
    outsAt0 m hO c t.val t.isLt (ix3 u n o) = rowSum (argX m c) (argW m c) (t.val / 16) 16 n o + argB m c (ix1 o) := by
  refine (at_last m hO c t (by omega) h1 u n o).trans ?_
  rw [acc_eq m hO c (t.val - 1) (Nat.lt_of_le_of_lt (Nat.sub_le _ _) t.isLt) (by omega) 0 n o,
    show (t.val - 1) / 16 = t.val / 16 from by omega, show (t.val - 1) % 16 + 1 = 15 from by omega,
    rowSum_succ _ _ (t.val / 16) 15, show 16 * (t.val / 16) + 15 = t.val from by omega]

end Cert.KernelIdeal.CorrValue

end
-- ==== Proof.KFinal.lean ====
import proofs.«109876_j73821897884183_1_alg».proof.Proof.KAcc
import proofs.«109876_j73821897884183_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

/-! ## From the written-back blocks to the output array

  The output's block moves with the output row alone, so it is written back once per row, after the row's last tap
  (points t with t % 16 = 15), into rows [t / 16, t / 16 + 1) of the [64, 64, 512] output. The 64 written-back blocks tile
  the output, and each is the corresponding block of the function `G` of the argument arrays. -/

namespace Cert.KernelIdeal.CorrValue

open Cert.KernelIdeal Cert.KernelIdeal.Gen Idealize.ShloMosaic.ValueIdx Cert.Corr

variable (m : (ℓ : Loc nD τ sig) → Buf (Elt Ideal) ℓ) (ρ : Dev nD → PrngReg)

/-- Where an entry of the output's block at point t sits in the output, at any contents of the table: in row t / 16. -/
theorem emb3 (a : (pcfg0 (F := Ideal)).Adm) (t : Fin (cfg0 a).N) (y : Fin 64) (hy : y.val = t.val / 16)
    (u : Fin 1) (n : Fin 64) (o : Fin 512) :
    (((cfg0 a).win 3).blk t).view.emb (ix3 u n o) = ix3 y n o := by
  funext ax; apply Fin.ext
  have hu : u.val = 0 := by omega
  have ht := transform3_eq t
  match ax with
  | ⟨0, h⟩ =>
    show cc0_transform_3 (grid0.coords t) ⟨0, h⟩ * 1 + 1 * u.val = y.val
    rw [ht, hu, hy]; show t.val / 16 * 1 + 1 * 0 = _; omega
  | ⟨1, h⟩ =>
    show cc0_transform_3 (grid0.coords t) ⟨1, h⟩ * 64 + 1 * n.val = n.val
    rw [ht]; show 0 * 64 + 1 * n.val = _; omega
  | ⟨2, h⟩ =>
    show cc0_transform_3 (grid0.coords t) ⟨2, h⟩ * 512 + 1 * o.val = o.val
    rw [ht]; show 0 * 512 + 1 * o.val = _; omega

/-- An output index lies in the block of point t when its row is t / 16, at any contents of the table. -/
theorem mem_blk3 (a : (pcfg0 (F := Ideal)).Adm) (t : Fin (cfg0 a).N) (i : S64x64x512.Idx) (hi : (i 0).val = t.val / 16) :
    i ∈ (((cfg0 a).win 3).blk t).view.set := by
  refine (Finset.ext_iff.mp (View.set_slice_whole main_v0 (((cfg0 a).win 3).rect t)) i).mpr ?_
  refine Rect.mem_set_unit.mpr ?_
  intro ax
  have ht := transform3_eq t
  have h1 : (i 1).val < 64 := (i 1).isLt
  have h2 : (i 2).val < 512 := (i 2).isLt
  match ax with
  | ⟨0, h⟩ =>
    show cc0_transform_3 (grid0.coords t) ⟨0, h⟩ * 1 ≤ (i 0).val ∧ (i 0).val < cc0_transform_3 (grid0.coords t) ⟨0, h⟩ * 1 + 1
    rw [ht]; show t.val / 16 * 1 ≤ (i 0).val ∧ (i 0).val < t.val / 16 * 1 + 1; omega
  | ⟨1, h⟩ =>
    show cc0_transform_3 (grid0.coords t) ⟨1, h⟩ * 64 ≤ (i 1).val ∧ (i 1).val < cc0_transform_3 (grid0.coords t) ⟨1, h⟩ * 64 + 64
    rw [ht]; show 0 * 64 ≤ (i 1).val ∧ (i 1).val < 0 * 64 + 64; omega
  | ⟨2, h⟩ =>
    show cc0_transform_3 (grid0.coords t) ⟨2, h⟩ * 512 ≤ (i 2).val ∧ (i 2).val < cc0_transform_3 (grid0.coords t) ⟨2, h⟩ * 512 + 512
    rw [ht]; show 0 * 512 ≤ (i 2).val ∧ (i 2).val < 0 * 512 + 512; omega

/-- The result as contents of the output array. -/
abbrev result (c : Dev nD) : Buf (Elt Ideal) ((c : Thread nD τ).loc main_v0) := G (argX m c) (argW m c) (argB m c)

/-- WHAT A WRITE-BACK WRITES: at a row's last tap, the row's block of `G`. -/
theorem flushed_eq (hO : Ok m) (c : Dev nD) (t : Fin (cfgM m hO).N) (hf : ((cfgM m hO).win 3).flush t = true) :
    (dats m hO 0 c).flushed 3 t = (((cfgM m hO).win 3).blk t).view.read (Elt Ideal) (result m c) := by
  have h15 : t.val % 16 = 15 := (flush0_3 (adm m hO) t).mp hf
  have hN : t.val < 1024 := lt_of_lt_of_eq t.isLt (show (cfgM m hO).N = 1024 from N_0)
  show ((cfgM m hO).win 3).cut (grid0.coords t) ((dats m hO 0 c).after 3 t) = _
  rw [after0_3]
  funext j
  obtain ⟨u, n, o, rfl⟩ := (fun j' : S1x64x512.Idx =>
    (⟨j' 0, j' 1, j' 2, eq_ix3 j'⟩ : ∃ (u : Fin 1) (n : Fin 64) (o : Fin 512), j' = ix3 u n o)) j
  show outsAt0 m hO c t.val t.isLt (ix3 u n o) = result m c ((((cfg0 (adm m hO)).win 3).blk t).view.emb (ix3 u n o))
  rw [emb3 (adm m hO) t ⟨t.val / 16, by omega⟩ rfl u n o, row_done m hO c t h15 u n o]
  rfl

/-- Every output index is in a written-back block: row y is covered by the write-back at point 16 y + 15. -/
theorem covered (hO : Ok m) (i : S64x64x512.Idx) :
    ∃ t : Fin (cfgM m hO).N, ((cfgM m hO).win 3).flush t = true ∧ i ∈ (((cfgM m hO).win 3).blk t).view.set := by
  have h0 : (i 0).val < 64 := (i 0).isLt
  refine ⟨⟨16 * (i 0).val + 15, by rw [show (cfgM m hO).N = 1024 from N_0]; omega⟩, ?_, ?_⟩
  · exact (flush0_3 (adm m hO) _).mpr (by show (16 * (i 0).val + 15) % 16 = 15; omega)
  · exact mem_blk3 (adm m hO) _ i (by show (i 0).val = (16 * (i 0).val + 15) / 16; omega)

/-- So the output array ends holding `G` of the argument arrays. -/
theorem final (hO : Ok m) (c : Dev nD) : (dats m hO 0 c).arrAt 3 (cfgM m hO).N = result m c :=
  (dats m hO 0 c).arrAt_eq_of_cover 3 (result m c) (flushed_eq m hO c) fun i => covered m hO i

/-- THE RUN, READ: every weakly fair execution ends with the output array at `G` of the argument arrays, which are unchanged. -/
theorem run (hO : Ok m) : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c)))⟩)
    (run_main m ρ hO)

end Cert.KernelIdeal.CorrValue

end
-- ==== Proof.LibSliceGather.lean ====
/-
  A gather of whole slices along the leading axis, read at an index.

  What x[idx] of an array x : [N, A, B] at an integer vector idx : [n] lowers to: a gather with offset axes [1, 2],
  collapsed slice axis [0], start index map [0], slice sizes [1, A, B] and the index vector on axis 1 of the start indices
  taken as [n, 1].  Result element (p, a, b) is x at (idx[p, 0], a, b), the start index read as a signed integer and clamped
  into [0, N - 1].
-/
import Idealize.ShloMosaic.Lib.ValueIdx

noncomputable section

namespace Cert.LibSliceGather

open Idealize.ShloMosaic Idealize.ShloMosaic.ValueIdx

variable {α : Type}

/-- Those dimension numbers for an operand [N, A, B], start indices [n, 1] and result [n, A, B]; their conditions wf are
    decided on a program's literal shapes. -/
abbrev sliceDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Of a rank-3 operand's axes, 1 and 2 are the ones that are not the collapsed axis 0. -/
private theorem kept_one : (1 : Fin 3) ∈ (List.finRange 3).filter (· ∉ ([0] ++ [] : List (Fin 3))) := by decide
private theorem kept_two : (2 : Fin 3) ∈ (List.finRange 3).filter (· ∉ ([0] ++ [] : List (Fin 3))) := by decide

/-- THE GATHER READ AT (p, a, b): the operand's slice at the start index idx[p, 0], read signed and clamped into
    [0, N - 1], at the slice coordinates (a, b). -/
theorem gather_slice_apply {N A B n w : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (p : Fin n) (a : Fin A) (b : Fin B) :
    Host.gather (sliceDims N A B n wf) x idx (ix3 p a b)
      = x (ix3 ⟨min (idx (ix2 p 0)).toInt.toNat (N - 1), by omega⟩ a b) := by
  -- the collapsed axis: no offset coordinate; the start is the clamped start index
  have h0 : (sliceDims N A B n wf).start (ix3 p a b) idx (0 : Fin 3) + (sliceDims N A B n wf).offCoord (ix3 p a b) (0 : Fin 3)
      = min (idx (ix2 p 0)).toInt.toNat (N - 1) := by
    rw [GatherDims.offCoord_eq_zero _ _ _
      (fun h => ((GatherDims.mem_sKept _ _).mp h).1 (List.mem_singleton.mpr rfl)), Nat.add_zero]
    unfold GatherDims.start
    rw [dif_pos (show (0 : Fin 3) ∈ (sliceDims N A B n wf).startIndexMap from List.mem_singleton.mpr rfl)]
    have hsi : (sliceDims N A B n wf).siIdx (ix3 p a b) ⟨List.idxOf (0 : Fin 3) (sliceDims N A B n wf).startIndexMap,
        List.idxOf_lt_length_iff.2 (List.mem_singleton.mpr rfl)⟩ = ix2 p 0 := by
      funext c; refine Fin.ext ?_
      match c with
      | ⟨0, _⟩ => rfl
      | ⟨1, _⟩ => rfl
    rw [hsi]
    rfl
  -- an offset axis: the start index map does not name it, and the offset coordinate is the result's own
  have s1 : (sliceDims N A B n wf).start (ix3 p a b) idx (1 : Fin 3) = 0 := by
    unfold GatherDims.start; exact dif_neg (show (1 : Fin 3) ∉ ([0] : List (Fin 3)) by decide)
  have s2 : (sliceDims N A B n wf).start (ix3 p a b) idx (2 : Fin 3) = 0 := by
    unfold GatherDims.start; exact dif_neg (show (2 : Fin 3) ∉ ([0] : List (Fin 3)) by decide)
  have o1 : (sliceDims N A B n wf).offCoord (ix3 p a b) (1 : Fin 3) = a.val := by
    unfold GatherDims.offCoord
    have hm : (1 : Fin 3) ∈ (sliceDims N A B n wf).sKept :=
      kept_one
    rw [dif_pos hm]; rfl
  have o2 : (sliceDims N A B n wf).offCoord (ix3 p a b) (2 : Fin 3) = b.val := by
    unfold GatherDims.offCoord
    have hm : (2 : Fin 3) ∈ (sliceDims N A B n wf).sKept :=
      kept_two
    rw [dif_pos hm]; rfl
  unfold Host.gather
  congr 1
  funext ax
  refine Fin.ext ?_
  show (sliceDims N A B n wf).start (ix3 p a b) idx ax + (sliceDims N A B n wf).batchCoord (ix3 p a b) ax
    + (sliceDims N A B n wf).offCoord (ix3 p a b) ax = _
  rw [GatherDims.batchCoord_eq_zero _ _ _ List.not_mem_nil, Nat.add_zero]
  match ax with
  | ⟨0, _⟩ => exact h0
  | ⟨1, _⟩ => exact (congrArg₂ (· + ·) s1 o1).trans (Nat.zero_add _)
  | ⟨2, _⟩ => exact (congrArg₂ (· + ·) s2 o2).trans (Nat.zero_add _)

end Cert.LibSliceGather

end
-- ==== Proof.RefRun.lean ====
/-
  The reference's run, read back.  @main is a straight line of 25 host operations; every weakly fair execution of it
  terminates with the result buffer at the operations' composed term of the three arguments, the arguments unchanged.
  The composed term is named here once: the frames gathered by the frame table, the filter taps gathered by the tap table,
  their batched contraction, scattered by addition into zero rows by the row table, plus the broadcast bias.
-/
import proofs.«109876_j73821897884183_1_alg».proof.Proof.Gen.ReferenceIdeal
import Idealize.ShloMosaic.Lib.StableHlo.Run

noncomputable section

namespace Cert.ReferenceIdeal.CorrRef

open Cert.ReferenceIdeal Cert.ReferenceIdeal.Facts₀ Idealize.ShloMosaic Idealize.ShloMosaic.TcCoe Idealize.SL.Sem Idealize.ShloMosaic.StableHlo

variable {F : FTy → Type} [FloatOps F]

/-- The frame of each of the 1024 pairs, as the program feeds it to its gather: the literal table through the
    negative-index wrap (table + 1024 where the mask holds, and the mask is constantly false), as a column [1024, 1]. -/
def xsIdx : IVec S1024x1 32 :=
  broadcastInDim S1024x1 ![0] bcast_S1024_S1024x1_0
    (select (constantI S1024 1 0#1)
      (addi (fun i => lit0 (S1024.rowMajor i)) (broadcastInDim S1024 ![] bcast_S_S1024 (constantI S_ 32 1024#32)))
      (fun i => lit0 (S1024.rowMajor i)))

/-- The filter tap of each pair, likewise (the wrap adds 16). -/
def wsIdx : IVec S1024x1 32 :=
  broadcastInDim S1024x1 ![0] bcast_S1024_S1024x1_0
    (select (constantI S1024 1 0#1)
      (addi (fun i => lit1 (S1024.rowMajor i)) (broadcastInDim S1024 ![] bcast_S_S1024 (constantI S_ 32 16#32)))
      (fun i => lit1 (S1024.rowMajor i)))

/-- The output row of each pair, as a column [1024, 1]. -/
def ysIdx : IVec S1024x1 32 :=
  broadcastInDim S1024x1 ![0] bcast_S1024_S1024x1_0 (fun i => lit2 (S1024.rowMajor i))

/-- THE COMPOSED TERM of @main over its three arguments. -/
def refTerm (x : FVec F S1024x64x512 .f32) (wt : FVec F S16x512x512 .f32) (b : FVec F S512 .f32) : FVec F S64x64x512 .f32 :=
  addf
    (Host.scatterAdd scatter_S64x64x512_S1024x1_S1024x64x512_12_0_0_1
      (broadcastInDim S64x64x512 ![] bcast_S_S64x64x512 (constant S_ .f32 0x00000000#32)) ysIdx
      (Host.dotGeneral dot_S1024x64x512_S1024x512x512_S1024x64x512_2_1_1_2_0_0 none
        (Host.gather gather_S1024x64x512_S1024x1_S1024x64x512_12_0_n_n_0_1_164512 x xsIdx)
        (Host.gather gather_S16x512x512_S1024x1_S1024x512x512_12_0_n_n_0_1_1512512 wt wsIdx)))
    (broadcastInDim S64x64x512 ![0, 1, 2] bcast_S1x1x512_S64x64x512_0_1_2 (broadcastInDim S1x1x512 ![2] bcast_S512_S1x1x512_2 b))

/-- @main's 25 operations, in order. -/
abbrev ops : List (HloOp τ sig (Elt F)) :=
  [ nullary main_c (fun i => lit0 (S1024.rowMajor i)),
    nullary main_c_0 (constantI S1024 1 0#1),
    nullary main_c_1 (fun i => lit1 (S1024.rowMajor i)),
    nullary main_c_2 (constantI S1024 1 0#1),
    nullary main_c_3 (fun i => lit2 (S1024.rowMajor i)),
    nullary main_c_4 (constantI S_ 32 1024#32),
    unary main_c_4 main_v0 (broadcastInDim S1024 ![] bcast_S_S1024 : (⟨S_, .i32⟩ : BufTy).Contents (Elt F) → (⟨S1024, .i32⟩ : BufTy).Contents (Elt F)),
    binary main_c main_v0 main_v1 (addi : (⟨S1024, .i32⟩ : BufTy).Contents (Elt F) → (⟨S1024, .i32⟩ : BufTy).Contents (Elt F) → (⟨S1024, .i32⟩ : BufTy).Contents (Elt F)),
    ternary main_c_0 main_v1 main_c main_v2 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v2 main_v3 (broadcastInDim S1024x1 ![0] bcast_S1024_S1024x1_0 : (⟨S1024, .i32⟩ : BufTy).Contents (Elt F) → (⟨S1024x1, .i32⟩ : BufTy).Contents (Elt F)),
    binary main_arg0 main_v3 main_v4 ((fun x i => Host.gather gather_S1024x64x512_S1024x1_S1024x64x512_12_0_n_n_0_1_164512 x i) : (⟨S1024x64x512, .f32⟩ : BufTy).Contents (Elt F) → (⟨S1024x1, .i32⟩ : BufTy).Contents (Elt F) → (⟨S1024x64x512, .f32⟩ : BufTy).Contents (Elt F)),
    nullary main_c_5 (constantI S_ 32 16#32),
    unary main_c_5 main_v5 (broadcastInDim S1024 ![] bcast_S_S1024 : (⟨S_, .i32⟩ : BufTy).Contents (Elt F) → (⟨S1024, .i32⟩ : BufTy).Contents (Elt F)),
    binary main_c_1 main_v5 main_v6 (addi : (⟨S1024, .i32⟩ : BufTy).Contents (Elt F) → (⟨S1024, .i32⟩ : BufTy).Contents (Elt F) → (⟨S1024, .i32⟩ : BufTy).Contents (Elt F)),
    ternary main_c_2 main_v6 main_c_1 main_v7 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v7 main_v8 (broadcastInDim S1024x1 ![0] bcast_S1024_S1024x1_0 : (⟨S1024, .i32⟩ : BufTy).Contents (Elt F) → (⟨S1024x1, .i32⟩ : BufTy).Contents (Elt F)),
    binary main_arg1 main_v8 main_v9 ((fun x i => Host.gather gather_S16x512x512_S1024x1_S1024x512x512_12_0_n_n_0_1_1512512 x i) : (⟨S16x512x512, .f32⟩ : BufTy).Contents (Elt F) → (⟨S1024x1, .i32⟩ : BufTy).Contents (Elt F) → (⟨S1024x512x512, .f32⟩ : BufTy).Contents (Elt F)),
    binary main_v4 main_v9 main_v10 ((fun l r => Host.dotGeneral dot_S1024x64x512_S1024x512x512_S1024x64x512_2_1_1_2_0_0 none l r) : (⟨S1024x64x512, .f32⟩ : BufTy).Contents (Elt F) → (⟨S1024x512x512, .f32⟩ : BufTy).Contents (Elt F) → (⟨S1024x64x512, .f32⟩ : BufTy).Contents (Elt F)),
    nullary main_cst (constant S_ .f32 0x00000000#32),
    unary main_cst main_v11 (broadcastInDim S64x64x512 ![] bcast_S_S64x64x512 : (⟨S_, .f32⟩ : BufTy).Contents (Elt F) → (⟨S64x64x512, .f32⟩ : BufTy).Contents (Elt F)),
    unary main_c_3 main_v12 (broadcastInDim S1024x1 ![0] bcast_S1024_S1024x1_0 : (⟨S1024, .i32⟩ : BufTy).Contents (Elt F) → (⟨S1024x1, .i32⟩ : BufTy).Contents (Elt F)),
    ternary main_v11 main_v12 main_v10 main_v13 ((fun x i u => Host.scatterAdd scatter_S64x64x512_S1024x1_S1024x64x512_12_0_0_1 x i u) : (⟨S64x64x512, .f32⟩ : BufTy).Contents (Elt F) → (⟨S1024x1, .i32⟩ : BufTy).Contents (Elt F) → (⟨S1024x64x512, .f32⟩ : BufTy).Contents (Elt F) → (⟨S64x64x512, .f32⟩ : BufTy).Contents (Elt F)),
    unary main_arg2 main_v14 (broadcastInDim S1x1x512 ![2] bcast_S512_S1x1x512_2 : (⟨S512, .f32⟩ : BufTy).Contents (Elt F) → (⟨S1x1x512, .f32⟩ : BufTy).Contents (Elt F)),
    unary main_v14 main_v15 (broadcastInDim S64x64x512 ![0, 1, 2] bcast_S1x1x512_S64x64x512_0_1_2 : (⟨S1x1x512, .f32⟩ : BufTy).Contents (Elt F) → (⟨S64x64x512, .f32⟩ : BufTy).Contents (Elt F)),
    binary main_v13 main_v15 main_v16 (addf : (⟨S64x64x512, .f32⟩ : BufTy).Contents (Elt F) → (⟨S64x64x512, .f32⟩ : BufTy).Contents (Elt F) → (⟨S64x64x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., unary_bufs_sub .., binary_bufs_sub ..⟩

/-- On every device, for any float values, from any memory with zero counters: every weakly fair execution of @main
    terminates with the result at the composed term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans (by after_results_simp; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.CorrRef

end
-- ==== Proof.RefTerm.lean ====
/-
  The reference's composed term is the correlation G.

  Read at output entry (y, n, o): the bias broadcasts to b o; the scatter adds into a zero row the updates of exactly the
  pairs whose row table entry is y, which are the sixteen pairs 16 y + w, w < 16, since pair k's row is k / 16; the update
  of pair k is the batched contraction over the 512 input channels of the gathered frame against the gathered filter,
  and the gathers read frame (k / 16 + 1)(k % 16 + 1) - 1 and tap k % 16, since the frame and tap tables say so at each of
  the 1024 pairs.  The tables' entries are checked by evaluation over the 1024 pairs and never opened at a symbolic pair.
-/
import proofs.«109876_j73821897884183_1_alg».proof.Proof.Spec
import proofs.«109876_j73821897884183_1_alg».proof.Proof.LibSliceGather
import proofs.«109876_j73821897884183_1_alg».proof.Proof.RefRun
import Idealize.ShloMosaic.PureOps.Ideal.Laws
import Idealize.ShloMosaic.Lib.Decide

noncomputable section

namespace Cert.ReferenceIdeal.CorrRef

open Cert.ReferenceIdeal Cert.ReferenceIdeal.Facts₀ Idealize.ShloMosaic Idealize.ShloMosaic.ValueIdx Cert.LibSliceGather
open scoped BigOperators

/-! ## The three tables, entry by entry over the 1024 pairs -/

/-- Pair k's frame is (k / 16 + 1)(k % 16 + 1) - 1. -/
theorem lit0_toNat : ∀ k : Fin 1024, (lit0 k).toNat = (k.val / 16 + 1) * (k.val % 16 + 1) - 1 := by decide +kernel
/-- Pair k's tap is k % 16. -/
theorem lit1_toNat : ∀ k : Fin 1024, (lit1 k).toNat = k.val % 16 := by decide +kernel
/-- Pair k's output row is k / 16. -/
theorem lit2_toNat : ∀ k : Fin 1024, (lit2 k).toNat = k.val / 16 := by decide +kernel

/-! ## The index columns and the two gathers -/

/-- A word below 2 ^ 31 read as a signed integer is its value. -/
theorem toInt_small (v : BitVec 32) (h : v.toNat < 1024) : v.toInt = (v.toNat : ℤ) :=
  BitVec.toInt_eq_toNat_of_lt (by omega)

/-- A vector of 1024 words as a column [1024, 1], read at row p. -/
theorem col_apply (v : IVec S1024 32) (p : Fin 1024) :
    broadcastInDim S1024x1 ![0] bcast_S1024_S1024x1_0 v (ix2 p 0) = v (ix1 p) := by
  unfold broadcastInDim
  refine congrArg v ?_
  funext a
  match a with
  | ⟨0, _⟩ => rfl

/-- The negative-index wrap of a table under the constantly false mask is the table. -/
theorem wrap_apply (t : Fin 1024 → BitVec 32) (c : BitVec 32) (p : Fin 1024) :
    select (constantI S1024 1 0#1)
      (addi (fun i => t (S1024.rowMajor i)) (broadcastInDim S1024 ![] bcast_S_S1024 (constantI S_ 32 c)))
      (fun i => t (S1024.rowMajor i)) (ix1 p) = t p := by
  rw [select_apply]
  show Scalar.select 0#1 _ _ = _
  rw [select_zero]
  exact congrArg t (Fin.ext (Shape.rowMajor_val_one _))

theorem xsIdx_apply (p : Fin 1024) : xsIdx (ix2 p 0) = lit0 p := by
  unfold xsIdx; rw [col_apply, wrap_apply]
theorem wsIdx_apply (p : Fin 1024) : wsIdx (ix2 p 0) = lit1 p := by
  unfold wsIdx; rw [col_apply, wrap_apply]
theorem ysIdx_apply (p : Fin 1024) : ysIdx (ix2 p 0) = lit2 p := by
  unfold ysIdx; rw [col_apply]
  exact congrArg lit2 (Fin.ext (Shape.rowMajor_val_one _))

/-- The gathered frames: row p is the frame of pair p. -/
theorem gatherX_apply (x : FVec Ideal S1024x64x512 .f32) (p : Fin 1024) (n : Fin 64) (c : Fin 512) :
    Host.gather gather_S1024x64x512_S1024x1_S1024x64x512_12_0_n_n_0_1_164512 x xsIdx (ix3 p n c)
      = x (ix3 (Cert.Corr.frameOf p.val) n c) := by
  refine (gather_slice_apply (N := 1024) (A := 64) (B := 512) (n := 1024) (by norm_num)
    gather_S1024x64x512_S1024x1_S1024x64x512_12_0_n_n_0_1_164512_wf x xsIdx p n c).trans (congrArg x ?_)
  refine congrArg (fun q => (ix3 q n c : S1024x64x512.Idx)) (Fin.ext ?_)
  show min (xsIdx (ix2 p 0)).toInt.toNat (1024 - 1) = (Cert.Corr.frameOf p.val).val
  have hv := lit0_toNat p
  have hf := Cert.Corr.frameOf_val p.isLt
  have hlt := (Cert.Corr.frameOf p.val).isLt
  rw [xsIdx_apply, toInt_small _ (by omega), Int.toNat_natCast, hv, ← hf]
  omega

/-- The gathered filters: slice p is the filter of pair p's tap. -/
theorem gatherW_apply (wt : FVec Ideal S16x512x512 .f32) (p : Fin 1024) (c o : Fin 512) :
    Host.gather gather_S16x512x512_S1024x1_S1024x512x512_12_0_n_n_0_1_1512512 wt wsIdx (ix3 p c o)
      = wt (ix3 (Cert.Corr.tapOf p.val) c o) := by
  refine (gather_slice_apply (N := 16) (A := 512) (B := 512) (n := 1024) (by norm_num)
    gather_S16x512x512_S1024x1_S1024x512x512_12_0_n_n_0_1_1512512_wf wt wsIdx p c o).trans (congrArg wt ?_)
  refine congrArg (fun q => (ix3 q c o : S16x512x512.Idx)) (Fin.ext ?_)
  show min (wsIdx (ix2 p 0)).toInt.toNat (16 - 1) = p.val % 16
  have hv := lit1_toNat p
  have hlt : p.val % 16 < 16 := Nat.mod_lt _ (by norm_num)
  rw [wsIdx_apply, toInt_small _ (by omega), Int.toNat_natCast, hv]
  omega

theorem ysIdx_toInt (k : Fin 1024) : (ysIdx (ix2 k 0)).toInt = ((k.val / 16 : ℕ) : ℤ) := by
  have hv := lit2_toNat k
  have := k.isLt
  rw [ysIdx_apply, toInt_small _ (by omega), hv]

/-! ## The batched contraction -/

abbrev DD := dot_S1024x64x512_S1024x512x512_S1024x64x512_2_1_1_2_0_0

theorem dd_rank : DD.contr.rank = 1 := rfl
theorem dd_size : DD.contr.size ⟨0, by rw [dd_rank]; exact Nat.one_pos⟩ = 512 := rfl

theorem lhsIdx_eq (p : Fin 1024) (n : Fin 64) (o c : Fin 512) :
    DD.lhsIdx (ix3 p n o) ((contrEquiv1 DD 512 dd_rank dd_size).symm c) = ix3 p n c := by
  funext a; refine Fin.ext ?_
  match a with
  | ⟨0, _⟩ => rfl
  | ⟨1, _⟩ => rfl
  | ⟨2, _⟩ =>
    exact (DD.lhsIdx_val_of_single (cl := (2 : Fin 3)) rfl _ _).trans (contrEquiv1_symm_val DD 512 dd_rank dd_size c)

theorem rhsIdx_eq (p : Fin 1024) (n : Fin 64) (o c : Fin 512) :
    DD.rhsIdx (ix3 p n o) ((contrEquiv1 DD 512 dd_rank dd_size).symm c) = ix3 p c o := by
  funext a; refine Fin.ext ?_
  match a with
  | ⟨0, _⟩ => rfl
  | ⟨1, _⟩ =>
    exact (DD.rhsIdx_val_of_single (cr := (1 : Fin 3)) rfl _ _).trans (contrEquiv1_symm_val DD 512 dd_rank dd_size c)
  | ⟨2, _⟩ => rfl

theorem dot_apply (l : FVec Ideal S1024x64x512 .f32) (r : FVec Ideal S1024x512x512 .f32) (p : Fin 1024) (n : Fin 64) (o : Fin 512) :
    Host.dotGeneral DD none l r (ix3 p n o) = ∑ c : Fin 512, l (ix3 p n c) * r (ix3 p c o) := by
  show FloatOps.dotGeneral DD none .single l r (ix3 p n o) = _
  rw [Ideal.dotGeneral_apply, ← Equiv.sum_comp (contrEquiv1 DD 512 dd_rank dd_size).symm]
  exact Finset.sum_congr rfl fun c _ => by rw [lhsIdx_eq, rhsIdx_eq]

/-- The update of pair p at (n, o) is pair p's contribution. -/
theorem upd_apply (x : FVec Ideal S1024x64x512 .f32) (wt : FVec Ideal S16x512x512 .f32) (p : Fin 1024) (n : Fin 64) (o : Fin 512) :
    Host.dotGeneral DD none (Host.gather gather_S1024x64x512_S1024x1_S1024x64x512_12_0_n_n_0_1_164512 x xsIdx)
      (Host.gather gather_S16x512x512_S1024x1_S1024x512x512_12_0_n_n_0_1_1512512 wt wsIdx) (ix3 p n o)
      = Cert.Corr.term x wt p.val n o := by
  rw [dot_apply]
  unfold Cert.Corr.term
  exact Finset.sum_congr rfl fun c _ => by rw [gatherX_apply, gatherW_apply]

/-! ## The scatter by addition -/

abbrev SD := scatter_S64x64x512_S1024x1_S1024x64x512_12_0_0_1

private theorem not_mem_one : (1 : Fin 3) ∉ ([0] : List (Fin 3)) := by decide
private theorem not_mem_two : (2 : Fin 3) ∉ ([0] : List (Fin 3)) := by decide
private theorem not_kept_zero : (0 : Fin 3) ∉ (List.finRange 3).filter (· ∉ ([0] : List (Fin 3))) := by decide
private theorem kept_one : (1 : Fin 3) ∈ (List.finRange 3).filter (· ∉ ([0] : List (Fin 3))) := by decide
private theorem kept_two : (2 : Fin 3) ∈ (List.finRange 3).filter (· ∉ ([0] : List (Fin 3))) := by decide

/-- Where update (k, n, o) lands: at row y when the k-th scatter index reads y, columns unchanged. -/
theorem sd_resultIdx (idx : IVec S1024x1 32) (k : Fin 1024) (n : Fin 64) (o : Fin 512) (y : Fin 64)
    (h : (idx (ix2 k 0)).toInt = (y.val : ℤ)) :
    SD.resultIdx? (ix3 k n o) idx = some (ix3 y n o) := by
  have st0 : SD.start (ix3 k n o) idx (0 : Fin 3) = (y.val : ℤ) := by
    unfold ScatterDims.start
    rw [dif_pos (show (0 : Fin 3) ∈ SD.scatterDimsToOperandDims from List.mem_singleton.mpr rfl)]
    have hsi : SD.siIdx (ix3 k n o) ⟨List.idxOf (0 : Fin 3) SD.scatterDimsToOperandDims,
        List.idxOf_lt_length_iff.2 (List.mem_singleton.mpr rfl)⟩ = ix2 k 0 := by
      funext c; refine Fin.ext ?_
      match c with
      | ⟨0, _⟩ => rfl
      | ⟨1, _⟩ => rfl
    rw [hsi, h]
  have st1 : SD.start (ix3 k n o) idx (1 : Fin 3) = 0 := by
    unfold ScatterDims.start; exact dif_neg not_mem_one
  have st2 : SD.start (ix3 k n o) idx (2 : Fin 3) = 0 := by
    unfold ScatterDims.start; exact dif_neg not_mem_two
  have w0 : SD.window (ix3 k n o) (0 : Fin 3) = 0 := by
    unfold ScatterDims.window; exact dif_neg not_kept_zero
  have w1 : SD.window (ix3 k n o) (1 : Fin 3) = n.val := by
    unfold ScatterDims.window
    have hm : (1 : Fin 3) ∈ SD.sKept := kept_one
    rw [dif_pos hm]; rfl
  have w2 : SD.window (ix3 k n o) (2 : Fin 3) = o.val := by
    unfold ScatterDims.window
    have hm : (2 : Fin 3) ∈ SD.sKept := kept_two
    rw [dif_pos hm]; rfl
  have hall : ∀ a, 0 ≤ SD.start (ix3 k n o) idx a + SD.window (ix3 k n o) a
      ∧ SD.start (ix3 k n o) idx a + SD.window (ix3 k n o) a < S64x64x512.size a := by
    intro a
    match a with
    | ⟨0, _⟩ =>
      show 0 ≤ SD.start (ix3 k n o) idx (0 : Fin 3) + SD.window (ix3 k n o) (0 : Fin 3)
        ∧ SD.start (ix3 k n o) idx (0 : Fin 3) + SD.window (ix3 k n o) (0 : Fin 3) < (64 : ℕ)
      rw [st0, w0]; have := y.isLt; constructor <;> omega
    | ⟨1, _⟩ =>
      show 0 ≤ SD.start (ix3 k n o) idx (1 : Fin 3) + SD.window (ix3 k n o) (1 : Fin 3)
        ∧ SD.start (ix3 k n o) idx (1 : Fin 3) + SD.window (ix3 k n o) (1 : Fin 3) < (64 : ℕ)
      rw [st1, w1]; have := n.isLt; constructor <;> omega
    | ⟨2, _⟩ =>
      show 0 ≤ SD.start (ix3 k n o) idx (2 : Fin 3) + SD.window (ix3 k n o) (2 : Fin 3)
        ∧ SD.start (ix3 k n o) idx (2 : Fin 3) + SD.window (ix3 k n o) (2 : Fin 3) < (512 : ℕ)
      rw [st2, w2]; have := o.isLt; constructor <;> omega
  unfold ScatterDims.resultIdx?
  rw [dif_pos hall]
  refine congrArg some ?_
  funext a; refine Fin.ext ?_
  match a with
  | ⟨0, _⟩ =>
    show (SD.start (ix3 k n o) idx (0 : Fin 3) + SD.window (ix3 k n o) (0 : Fin 3)).toNat = y.val
    rw [st0, w0]; omega
  | ⟨1, _⟩ =>
    show (SD.start (ix3 k n o) idx (1 : Fin 3) + SD.window (ix3 k n o) (1 : Fin 3)).toNat = n.val
    rw [st1, w1]; omega
  | ⟨2, _⟩ =>
    show (SD.start (ix3 k n o) idx (2 : Fin 3) + SD.window (ix3 k n o) (2 : Fin 3)).toNat = o.val
    rw [st2, w2]; omega

/-- The pair number of output row y and tap w. -/
def pairOf (y : Fin 64) (w : Fin 16) : Fin 1024 := ⟨16 * y.val + w.val, by omega⟩

/-- THE SCATTER READ AT (y, n, o), when the k-th scatter index reads k / 16: the operand's element plus the sixteen
    updates of the pairs 16 y, …, 16 y + 15. -/
theorem scatter_apply (z : FVec Ideal S64x64x512 .f32) (idx : IVec S1024x1 32)
    (hidx : ∀ k : Fin 1024, (idx (ix2 k 0)).toInt = ((k.val / 16 : ℕ) : ℤ))
    (upd : FVec Ideal S1024x64x512 .f32) (y n : Fin 64) (o : Fin 512) :
    Host.scatterAdd SD z idx upd (ix3 y n o) = z (ix3 y n o) + ∑ w : Fin 16, upd (ix3 (pairOf y w) n o) := by
  show Ideal.hostScatterAdd SD z idx upd (ix3 y n o) = _
  unfold Ideal.hostScatterAdd
  refine congrArg (z (ix3 y n o) + ·) ?_
  have hinj : ∀ w ∈ (Finset.univ : Finset (Fin 16)), ∀ w' ∈ (Finset.univ : Finset (Fin 16)),
      (ix3 (pairOf y w) n o : S1024x64x512.Idx) = ix3 (pairOf y w') n o → w = w' := by
    intro w _ w' _ h
    have h0 : pairOf y w = pairOf y w' := congrFun h (0 : Fin 3)
    have h1 : 16 * y.val + w.val = 16 * y.val + w'.val := congrArg Fin.val h0
    exact Fin.ext (by omega)
  rw [← Finset.sum_image hinj]
  refine Finset.sum_congr ?_ (fun _ _ => rfl)
  ext j
  obtain ⟨k, n', o', rfl⟩ : ∃ (k : Fin 1024) (n' : Fin 64) (o' : Fin 512), j = ix3 k n' o' := ⟨j 0, j 1, j 2, eq_ix3 j⟩
  have hk : k.val / 16 < 64 := by have := k.isLt; omega
  rw [Finset.mem_filter, Finset.mem_image, sd_resultIdx idx k n' o' ⟨k.val / 16, hk⟩ (hidx k)]
  constructor
  · rintro ⟨_, h⟩
    have h' := Option.some.inj h
    have e0 : (⟨k.val / 16, hk⟩ : Fin 64) = y := congrFun h' (0 : Fin 3)
    have e1 : n' = n := congrFun h' (1 : Fin 3)
    have e2 : o' = o := congrFun h' (2 : Fin 3)
    have e0' : k.val / 16 = y.val := congrArg Fin.val e0
    refine ⟨⟨k.val % 16, Nat.mod_lt _ (by norm_num)⟩, Finset.mem_univ _, ?_⟩
    subst e1 e2
    refine congrArg (fun q => (ix3 q n' o' : S1024x64x512.Idx)) (Fin.ext ?_)
    show 16 * y.val + k.val % 16 = k.val
    omega
  · rintro ⟨w, _, h⟩
    have e0 : pairOf y w = k := congrFun h (0 : Fin 3)
    have e1 : n = n' := congrFun h (1 : Fin 3)
    have e2 : o = o' := congrFun h (2 : Fin 3)
    subst e0 e1 e2
    refine ⟨Finset.mem_univ _, congrArg some ?_⟩
    refine congrArg (fun q => (ix3 q n o : S64x64x512.Idx)) (Fin.ext ?_)
    show (16 * y.val + w.val) / 16 = y.val
    have := w.isLt; omega

/-! ## The zero rows and the bias -/

/-- The operand the scatter adds into is zero everywhere. -/
theorem zeros_apply (i : S64x64x512.Idx) :
    broadcastInDim S64x64x512 ![] bcast_S_S64x64x512 (constant (F := Ideal) S_ .f32 0x00000000#32) i = 0 :=
  Ideal.ofBits_zero_f32

/-- The bias, broadcast to [1, 1, 512] and then to [64, 64, 512], read at (y, n, o) is b o. -/
theorem bias_apply (b : FVec Ideal S512 .f32) (y n : Fin 64) (o : Fin 512) :
    broadcastInDim S64x64x512 ![0, 1, 2] bcast_S1x1x512_S64x64x512_0_1_2
      (broadcastInDim S1x1x512 ![2] bcast_S512_S1x1x512_2 b) (ix3 y n o) = b (ix1 o) := by
  unfold broadcastInDim
  refine congrArg b ?_
  funext a
  match a with
  | ⟨0, _⟩ => rfl

/-! ## The composed term is G -/

theorem refTerm_eq_G (x : FVec Ideal S1024x64x512 .f32) (wt : FVec Ideal S16x512x512 .f32) (b : FVec Ideal S512 .f32) :
    refTerm x wt b = Cert.Corr.G x wt b := by
  funext i
  obtain ⟨y, n, o, rfl⟩ : ∃ (y n : Fin 64) (o : Fin 512), i = ix3 y n o := ⟨i 0, i 1, i 2, eq_ix3 i⟩
  unfold refTerm
  rw [addf_apply, scatter_apply _ _ ysIdx_toInt, zeros_apply, zero_add, bias_apply]
  show _ = Cert.Corr.rowSum x wt y.val 16 n o + b (ix1 o)
  refine congrArg (· + b (ix1 o)) ?_
  unfold Cert.Corr.rowSum
  rw [Finset.sum_range]
  exact Finset.sum_congr rfl fun w _ => upd_apply x wt (pairOf y w) n o

end Cert.ReferenceIdeal.CorrRef

end
-- ==== Proof.RefValue.lean ====
/-
  The reference's run at the ideal values, stated over the correlation G: every weakly fair execution of @main terminates
  with the result buffer at G of the three arguments' launch contents, the arguments unchanged.  The run reads the result
  back as the operations' composed term; that term is G.
-/
import proofs.«109876_j73821897884183_1_alg».proof.Proof.RefTerm

noncomputable section

namespace Cert.ReferenceIdeal.CorrRef

open Cert.ReferenceIdeal Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16) = Cert.Corr.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c).1.trans (refTerm_eq_G _ _ _), (h c).2⟩) (run_term m ρ)

end Cert.ReferenceIdeal.CorrRef

end
-- ==== Proof.lean ====
/-
  The kernel computes a one-dimensional correlation at mediant-matched positions: output row y of 64 is built from
  sixteen input frames, frame (y + 1)(w + 1) - 1 for filter tap w, each contracted over its 512 input channels with the
  tap's [512, 512] filter, the sixteen products summed and the bias added:

      out[y, n, o] = (∑ w < 16, ∑ c < 512, in[(y + 1)(w + 1) - 1, n, c] · weight[w, c, o]) + bias[o].

  The kernel walks a 64 × 16 grid. A table of the 1024 frames, a constant of the program, is prefetched, and the input's
  window reads word 16 y + w of it as its block index; the filters and the bias are resident; the output's block stays
  on row y for sixteen points: it is zeroed at the row's first tap, the tap's product is added at every tap, the bias at
  the last, and the block is written back after that.  The reference gathers the 1024 frames and the 1024 filters by
  three constant tables (frames, taps k % 16, rows k / 16), contracts them in one batched product, and adds the 1024
  products into the 64 rows by a scatter-add, then adds the bias.

  Over the extended reals a change of float format is the identity and both a product into a zero accumulator and a
  scatter-add are exact sums, so both programs end at the function `Corr.G` above (Proof/Spec.lean): the kernel because
  its block after point 16 y + j holds the row's first j + 1 products (an induction over the grid points, Proof/KAcc.lean)
  and the 64 written-back blocks tile the output (Proof/KFinal.lean); the reference because the updates that land on
  entry (y, n, o) are those of pairs 16 y + w, w < 16 (Proof/RefTerm.lean).  Only commutativity and associativity of
  addition are used, so the inputs' finiteness is not needed.

  The frames hold without the precondition too: the kernel's pipeline needs every table-indexed block inside the input,
  and every word of the constant table is a frame below 1024 (Proof/KernelTable.lean, Proof/KernelIdealTable.lean); the
  reference's frame is its run with the result dropped.  The idealization rewrote nothing, so `preserves` is trivial.
-/
import proofs.«109876_j73821897884183_1_alg».proof.Defs
import proofs.«109876_j73821897884183_1_alg».proof.Proof.Gen.Kernel
import proofs.«109876_j73821897884183_1_alg».proof.Proof.Gen.Kernel.Skeleton
import proofs.«109876_j73821897884183_1_alg».proof.Proof.Gen.Kernel.Launch
import proofs.«109876_j73821897884183_1_alg».proof.Proof.Gen.Kernel.Points
import proofs.«109876_j73821897884183_1_alg».proof.Proof.Gen.Kernel.Frame
import proofs.«109876_j73821897884183_1_alg».proof.Proof.Gen.KernelIdeal
import proofs.«109876_j73821897884183_1_alg».proof.Proof.Gen.KernelIdeal.Skeleton
import proofs.«109876_j73821897884183_1_alg».proof.Proof.Gen.KernelIdeal.Launch
import proofs.«109876_j73821897884183_1_alg».proof.Proof.Gen.KernelIdeal.Points
import proofs.«109876_j73821897884183_1_alg».proof.Proof.Gen.KernelIdeal.Frame
import proofs.«109876_j73821897884183_1_alg».proof.Proof.Gen.ReferenceIdeal
import proofs.«109876_j73821897884183_1_alg».proof.Proof.Gen.Pre_finite_inputs
import proofs.«109876_j73821897884183_1_alg».proof.Proof.KernelTable
import proofs.«109876_j73821897884183_1_alg».proof.Proof.KernelIdealTable
import proofs.«109876_j73821897884183_1_alg».proof.Proof.KFinal
import proofs.«109876_j73821897884183_1_alg».proof.Proof.RefValue
import Idealize.ShloMosaic.Adequacy
import Idealize.ShloMosaic.Init

noncomputable section

namespace Cert.Proof

open Idealize.ShloMosaic Idealize.SL.Sem

/-- The kernel runs and keeps its arguments: its generated frame, under the side condition the constant table meets. -/
theorem frame_kernel : Cert.frame_Kernel := fun m ρ _ => Cert.Kernel.Gen.frame m ρ (Cert.Kernel.CorrTable.ok m)

/-- The same for the kernel read over the extended reals. -/
theorem frame_kernelIdeal : Cert.frame_KernelIdeal := fun m ρ _ =>
  Cert.KernelIdeal.Gen.frame m ρ (Cert.KernelIdeal.CorrTable.ok m)

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.CorrRef.run m ρ)

/-- From memories that agree on the three arguments both programs end with the output at `Corr.G` of them. -/
theorem algebraic : Cert.algebraic_KernelIdeal_ReferenceIdeal := by
  intro m ρ m' ρ' _ hagree
  refine ⟨_, Cert.KernelIdeal.CorrValue.run m ρ (Cert.KernelIdeal.CorrTable.ok m), ?_⟩
  refine (θ_run Cert.ReferenceIdeal.defs _ _).mono (fun _ h c => ⟨(h c).1.trans ?_, (h c).2⟩)
    (Cert.ReferenceIdeal.CorrRef.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
